-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x2048 : Shape := ⟨2, ![2048, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  rotates_S256x2048_d1 : S256x2048.Rotates 1 none
  inb_S256x1_S256x1_0_0 : ∀ a, (![0, 0] : Fin 2 → Nat) a + S256x1.size a ≤ S256x1.size a
  h_S256x1 : 0 < S256x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S31 : Shape := ⟨1, ![31]⟩
abbrev S31x1 : Shape := ⟨2, ![31, 1]⟩
abbrev S2048x4096 : Shape := ⟨2, ![2048, 4096]⟩
abbrev S31x2 : Shape := ⟨2, ![31, 2]⟩
abbrev S31x2048x2048 : Shape := ⟨3, ![31, 2048, 2048]⟩
abbrev S31x2048 : Shape := ⟨2, ![31, 2048]⟩
abbrev S31x2048x1 : Shape := ⟨3, ![31, 2048, 1]⟩
abbrev S1x2048x2048 : Shape := ⟨3, ![1, 2048, 2048]⟩
abbrev S1x2048 : Shape := ⟨2, ![1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S31, .i32⟩
  | .hbm, ⟨18, _⟩ => ⟨S_, .i32⟩
  | .hbm, ⟨19, _⟩ => ⟨S31, .i32⟩
  | .hbm, ⟨20, _⟩ => ⟨S31, .i32⟩
  | .hbm, ⟨21, _⟩ => ⟨S31x1, .i32⟩
  | .hbm, ⟨22, _⟩ => ⟨S31x1, .i32⟩
  | .hbm, ⟨23, _⟩ => ⟨S31, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S31, .i32⟩
  | .hbm, ⟨32, _⟩ => ⟨S31, .i32⟩
  | .hbm, ⟨33, _⟩ => ⟨S_, .i32⟩
  | .hbm, ⟨34, _⟩ => ⟨S31, .i32⟩
  | .hbm, ⟨35, _⟩ => ⟨S31, .i1⟩
  | .hbm, ⟨36, _⟩ => ⟨S_, .i32⟩
  | .hbm, ⟨37, _⟩ => ⟨S31, .i32⟩
  | .hbm, ⟨38, _⟩ => ⟨S31, .i1⟩
  | .hbm, ⟨39, _⟩ => ⟨S_, .i32⟩
  | .hbm, ⟨40, _⟩ => ⟨S_, .i1⟩
  | .hbm, ⟨41, _⟩ => ⟨S31, .i1⟩
  | .hbm, ⟨42, _⟩ => ⟨S31, .i1⟩
  | .hbm, ⟨43, _⟩ => ⟨S31, .i1⟩
  | .hbm, ⟨44, _⟩ => ⟨S31, .i32⟩
  | .hbm, ⟨45, _⟩ => ⟨S31, .i32⟩
  | .hbm, ⟨46, _⟩ => ⟨S31, .i32⟩
  | .hbm, ⟨47, _⟩ => ⟨S2048x4096, .f32⟩
  | .hbm, ⟨48, _⟩ => ⟨S_, .i32⟩
  | .hbm, ⟨49, _⟩ => ⟨S31, .i32⟩
  | .hbm, ⟨50, _⟩ => ⟨S31, .i32⟩
  | .hbm, ⟨51, _⟩ => ⟨S_, .i32⟩
  | .hbm, ⟨52, _⟩ => ⟨S31, .i32⟩
  | .hbm, ⟨53, _⟩ => ⟨S31, .i1⟩
  | .hbm, ⟨54, _⟩ => ⟨S_, .i32⟩
  | .hbm, ⟨55, _⟩ => ⟨S31, .i32⟩
  | .hbm, ⟨56, _⟩ => ⟨S31, .i32⟩
  | .hbm, ⟨57, _⟩ => ⟨S31, .i32⟩
  | .hbm, ⟨58, _⟩ => ⟨S_, .i32⟩
  | .hbm, ⟨59, _⟩ => ⟨S31x1, .i32⟩
  | .hbm, ⟨60, _⟩ => ⟨S31x1, .i32⟩
  | .hbm, ⟨61, _⟩ => ⟨S31x2, .i32⟩
  | .hbm, ⟨62, _⟩ => ⟨S31x2048x2048, .f32⟩
  | .hbm, ⟨63, _⟩ => ⟨S_, .f32⟩
  | .hbm, ⟨64, _⟩ => ⟨S31x2048, .f32⟩
  | .hbm, ⟨65, _⟩ => ⟨S31x2048x1, .f32⟩
  | .hbm, ⟨66, _⟩ => ⟨S_, .f32⟩
  | .hbm, ⟨67, _⟩ => ⟨S31x2048x1, .f32⟩
  | .hbm, ⟨68, _⟩ => ⟨S31x2048x1, .f32⟩
  | .hbm, ⟨69, _⟩ => ⟨S31x2048x2048, .f32⟩
  | .hbm, ⟨70, _⟩ => ⟨S31x2048x2048, .f32⟩
  | .hbm, ⟨71, _⟩ => ⟨S31x2048x2048, .f32⟩
  | .hbm, ⟨72, _⟩ => ⟨S_, .f32⟩
  | .hbm, ⟨73, _⟩ => ⟨S31x2048, .f32⟩
  | .hbm, ⟨74, _⟩ => ⟨S_, .f32⟩
  | .hbm, ⟨75, _⟩ => ⟨S31x2048, .f32⟩
  | .hbm, ⟨76, _⟩ => ⟨S31x2048, .f32⟩
  | .hbm, ⟨77, _⟩ => ⟨S31x2048, .f32⟩
  | .hbm, ⟨78, _⟩ => ⟨S1x2048x2048, .f32⟩
  | .hbm, ⟨79, _⟩ => ⟨S31x2048x2048, .f32⟩
  | .hbm, ⟨80, _⟩ => ⟨S31x2048x2048, .f32⟩
  | .hbm, ⟨81, _⟩ => ⟨S_, .f32⟩
  | .hbm, ⟨82, _⟩ => ⟨S31x2048, .f32⟩
  | .hbm, ⟨83, _⟩ => ⟨S1x2048, .f32⟩
  | .hbm, ⟨84, _⟩ => ⟨S31x2048, .f32⟩
  | .hbm, ⟨85, _⟩ => ⟨S31x2048, .f32⟩
  | .hbm, ⟨86, _⟩ => ⟨S31x2048, .f32⟩
  | .hbm, ⟨87, _⟩ => ⟨S_, .f32⟩
  | .hbm, ⟨88, _⟩ => ⟨S2048, .f32⟩
  | .hbm, ⟨89, _⟩ => ⟨S_, .f32⟩
  | .hbm, ⟨90, _⟩ => ⟨S2048, .f32⟩
  | .hbm, ⟨91, _⟩ => ⟨S2048, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_c : Ref sig .tc := ⟨.hbm, 24, rfl⟩
abbrev main_call0_c_0 : Ref sig .tc := ⟨.hbm, 25, rfl⟩
abbrev main_call0_v3 : Ref sig .tc := ⟨.hbm, 26, rfl⟩
abbrev main_call0_call0_c : Ref sig .tc := ⟨.hbm, 27, rfl⟩
abbrev main_call0_call0_v0 : Ref sig .tc := ⟨.hbm, 28, rfl⟩
abbrev main_call0_call0_c_0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_c_1 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_c_2 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_c_3 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_v6 : Ref sig .tc := ⟨.hbm, 49, rfl⟩
abbrev main_call0_v7 : Ref sig .tc := ⟨.hbm, 50, rfl⟩
abbrev main_call0_c_2 : Ref sig .tc := ⟨.hbm, 51, rfl⟩
abbrev main_call0_v8 : Ref sig .tc := ⟨.hbm, 52, rfl⟩
abbrev main_call0_v9 : Ref sig .tc := ⟨.hbm, 53, rfl⟩
abbrev main_call0_c_3 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_c_4 : Ref sig .tc := ⟨.hbm, 58, rfl⟩
abbrev main_call0_v13 : Ref sig .tc := ⟨.hbm, 59, rfl⟩
abbrev main_call0_v14 : Ref sig .tc := ⟨.hbm, 60, rfl⟩
abbrev main_call0_v15 : Ref sig .tc := ⟨.hbm, 61, rfl⟩
abbrev main_v14 : Ref sig .tc := ⟨.hbm, 62, rfl⟩
abbrev main_cst_3 : Ref sig .tc := ⟨.hbm, 63, rfl⟩
abbrev main_v15 : Ref sig .tc := ⟨.hbm, 64, rfl⟩
abbrev main_v16 : Ref sig .tc := ⟨.hbm, 65, rfl⟩
abbrev main_cst_4 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_5 : Ref sig .tc := ⟨.hbm, 72, rfl⟩
abbrev main_v22 : Ref sig .tc := ⟨.hbm, 73, rfl⟩
abbrev main_cst_6 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_cst_7 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_8 : Ref sig .tc := ⟨.hbm, 87, rfl⟩
abbrev main_v34 : Ref sig .tc := ⟨.hbm, 88, rfl⟩
abbrev main_cst_9 : Ref sig .tc := ⟨.hbm, 89, rfl⟩
abbrev main_v35 : Ref sig .tc := ⟨.hbm, 90, rfl⟩
abbrev main_v36 : Ref sig .tc := ⟨.hbm, 91, rfl⟩
abbrev main_cst_10 : Ref sig .tc := ⟨.hbm, 92, rfl⟩
abbrev main_v37 : Ref sig .tc := ⟨.hbm, 93, rfl⟩
abbrev main_cst_11 : Ref sig .tc := ⟨.hbm, 94, rfl⟩
abbrev main_v38 : Ref sig .tc := ⟨.hbm, 95, rfl⟩
abbrev main_cst_12 : Ref sig .tc := ⟨.hbm, 96, rfl⟩
abbrev main_v39 : Ref sig .tc := ⟨.hbm, 97, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048 : S_.BroadcastsInDim S2048 (![] : Fin 0 → Fin S2048.rank)
  bcast_S_S31 : S_.BroadcastsInDim S31 (![] : Fin 0 → Fin S31.rank)
  bcast_S31_S31x1_0 : S31.BroadcastsInDim S31x1 (![0] : Fin 1 → Fin S31x1.rank)
  slices_S31x1_S31x1_0_0 : S31x1.Slices ![0, 0] S31x1
  shapeCasts_S31x1_S31 : S31x1.ShapeCasts S31
  concatenates_S2048x2048_S2048x2048_S2048x4096_d1 : Shape.Concatenates [S2048x2048, S2048x2048] S2048x4096 1
  bcast_S_S31x1 : S_.BroadcastsInDim S31x1 (![] : Fin 0 → Fin S31x1.rank)
  concatenates_S31x1_S31x1_S31x2_d1 : Shape.Concatenates [S31x1, S31x1] S31x2 1
  reducesTo_S31x2048x2048_S31x2048_d2 : S31x2048x2048.ReducesTo [2] S31x2048
  bcast_S31x2048_S31x2048x1_0_1 : S31x2048.BroadcastsInDim S31x2048x1 (![0, 1] : Fin 2 → Fin S31x2048x1.rank)
  bcast_S_S31x2048x1 : S_.BroadcastsInDim S31x2048x1 (![] : Fin 0 → Fin S31x2048x1.rank)
  bcast_S31x2048x1_S31x2048x2048_0_1_2 : S31x2048x1.BroadcastsInDim S31x2048x2048 (![0, 1, 2] : Fin 3 → Fin S31x2048x2048.rank)
  bcast_S_S31x2048 : S_.BroadcastsInDim S31x2048 (![] : Fin 0 → Fin S31x2048.rank)
  bcast_S2048x2048_S1x2048x2048_1_2 : S2048x2048.BroadcastsInDim S1x2048x2048 (![1, 2] : Fin 2 → Fin S1x2048x2048.rank)
  bcast_S1x2048x2048_S31x2048x2048_0_1_2 : S1x2048x2048.BroadcastsInDim S31x2048x2048 (![0, 1, 2] : Fin 3 → Fin S31x2048x2048.rank)
  bcast_S2048_S1x2048_1 : S2048.BroadcastsInDim S1x2048 (![1] : Fin 1 → Fin S1x2048.rank)
  bcast_S1x2048_S31x2048_0_1 : S1x2048.BroadcastsInDim S31x2048 (![0, 1] : Fin 2 → Fin S31x2048.rank)
  reducesTo_S31x2048_S2048_d0 : S31x2048.ReducesTo [0] S2048
  reducesTo_S2048_S_d0 : S2048.ReducesTo [0] S_
  gather_S2048x4096_S31x2_S31x2048x2048_12_n_n_n_01_1_20482048_wf : GatherDims.WF S2048x4096 S31x2 S31x2048x2048 [1, 2] [] [] [0, 1] [] 1 ![2048, 2048]

variable [Facts₀]

def gather_S2048x4096_S31x2_S31x2048x2048_12_n_n_n_01_1_20482048 : GatherDims S2048x4096 S31x2 S31x2048x2048 where
  offsetDims := [1, 2]
  collapsedSliceDims := []
  operandBatchingDims := []
  startIndicesBatchingDims := []
  startIndexMap := [0, 1]
  indexVectorDim := 1
  sliceSizes := ![2048, 2048]
  wf := gather_S2048x4096_S31x2_S31x2048x2048_12_n_n_n_01_1_20482048_wf

class Facts : Prop extends Facts₀ where

variable [Facts]
-- ==== Proof.Spec.lean ====
/-
  The mathematics both programs compute, row by row, on the extended reals.

  A row is a function on the 2048 column positions.  Its mean is the sum divided by 2048, its
  centred row subtracts the mean, its norm is the square root of the centred row's sum of squares
  plus a small positive literal.  A row is rotated by moving every entry `n` places to the right,
  cyclically; the 31 rotations considered move by -15, …, 15 places, that is by
  `(i + 2033) mod 2048` places for `i = 0, …, 30`.

  One program centres the prediction row ONCE, rotates the centred row, takes its inner product
  with the centred target row, keeps the largest of the 31 products, scales it by the reciprocal of
  the two norms' product and clamps it below at -1 (`kRow`).  The other rotates the prediction
  row FIRST, then centres the rotated row, takes the norm of THAT, forms the quotient for each
  rotation, keeps the largest quotient and clamps it (`rRow`).  The loss is one minus the mean of
  the per-row values over the 2048 rows.
-/
import Idealize.ShloMosaic.PureOps.Ideal
import Idealize.ShloMosaic.PureOps.Ideal.Laws
import Idealize.ShloMosaic.Lib.ValueIdx

noncomputable section

open scoped BigOperators

namespace Pearson

open Idealize.ShloMosaic

/-- The literal 2048.0. -/
abbrev cN : EReal := Ideal.ofBits .f32 0x45000000#32
/-- The small positive literal added under the square roots. -/
abbrev cEps : EReal := Ideal.ofBits .f32 0x322BCC77#32
/-- The literal 1.0. -/
abbrev cOne : EReal := Ideal.ofBits .f32 0x3F800000#32
/-- The literal -1.0. -/
abbrev cNegOne : EReal := Ideal.ofBits .f32 0xBF800000#32
/-- The literal -∞. -/
abbrev cNegInf : EReal := Ideal.ofBits .f32 0xFF800000#32

/-- A row of 2048 extended reals. -/
abbrev Row := Fin 2048 → EReal

/-- The mean of a row. -/
def mean (x : Row) : EReal := Ideal.div (∑ j, x j) cN
/-- The row minus its mean. -/
def ctr (x : Row) : Row := fun j => x j - mean x
/-- The square root of the centred row's sum of squares plus the small literal. -/
def nrm (x : Row) : EReal := Ideal.sqrt ((∑ j, ctr x j * ctr x j) + cEps)
/-- Position `j` of a row rotated right by `n` reads position `j - n` (cyclically) of the row. -/
def rot (n : ℕ) (j : Fin 2048) : Fin 2048 := ⟨(j.val + 2048 - n % 2048) % 2048, Nat.mod_lt _ (by decide)⟩
/-- The 31 rotation amounts: -15, …, 15 places, as residues modulo 2048. -/
def amt (i : Fin 31) : ℕ := (i.val + 2033) % 2048
/-- The row rotated by the `i`-th amount. -/
def rolled (p : Row) (i : Fin 31) : Row := fun j => p (rot (amt i) j)
/-- The inner product of the centred prediction row, rotated by the `i`-th amount, with the centred target row. -/
def cov (p t : Row) (i : Fin 31) : EReal := ∑ j, ctr p (rot (amt i) j) * ctr t j

/-- Centre once, rotate, keep the largest inner product, scale by the reciprocal of the norms' product, clamp at -1. -/
def kRow (p t : Row) : EReal :=
  max (((Finset.univ : Finset (Fin 31)).fold max cNegInf (cov p t)) * Ideal.div cOne (nrm p * nrm t)) cNegOne

/-- Rotate first, centre the rotated row, divide its inner product by its own norm times the target's, keep the
    largest quotient, clamp at -1. -/
def rRow (p t : Row) : EReal :=
  max ((Finset.univ : Finset (Fin 31)).fold max cNegInf
    (fun i => Ideal.div (∑ j, ctr (rolled p i) j * ctr t j) (nrm (rolled p i) * nrm t))) cNegOne

/-- One minus the mean over the 2048 rows of a per-row value. -/
def loss (row : Row → Row → EReal) (P T : Fin 2048 → Row) : EReal :=
  cOne - Ideal.div (∑ r, row (P r) (T r)) cN

/-- The rows of a 2048 × 2048 array. -/
def rows (A : (⟨2, ![2048, 2048]⟩ : Shape).Idx → EReal) : Fin 2048 → Row := fun r j => A (ValueIdx.ix2 r j)

end Pearson

end
-- ==== Proof.KernelRow.lean ====
/-
  The kernel body's value at one row, on the extended reals.

  The body centres both 256 × 2048 blocks row by row, forms for each of 31 cyclic column rotations of the
  centred first block its row-wise inner product with the centred second block, keeps the largest of the 31 in
  a running maximum that starts at -∞, multiplies it by the reciprocal of the product of the two rows' norms
  and clamps the result below at -1.  Read at row `r` each operation is an operation on row `r` alone: a lane
  sum is the sum over the row's 2048 entries, a column broadcast reads the column at `r`, a rotation reads the
  row at the cyclically shifted position.  The left-nested chain of 31 maxima is the running maximum along the
  list of rotation amounts, and a fold of `max` over all 31 indices is that same running maximum.
-/
import proofs.«418355_j68856915689812_3_alg».proof.Proof.Gen.KernelIdeal.Frame
import proofs.«418355_j68856915689812_3_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Data.Finset.Fold
import Mathlib.Data.Fintype.Basic

noncomputable section

open scoped BigOperators

namespace Cert.KernelIdeal.KRow

open Idealize.ShloMosaic Idealize.ShloMosaic.ValueIdx Cert.KernelIdeal Cert.KernelIdeal.Gen

/-- The whole-buffer rectangle's offsets are zero. -/
theorem hz : (![0, 0] : Fin 2 → Nat) = fun _ => 0 := funext fun a => by fin_cases a <;> rfl

/-- The lane sum of a 256 × 2048 block at row `r` is the sum over the row's 2048 entries. -/
theorem rowSum_apply (v : FVec Ideal S256x2048 .f32) (hacc : (0x00000000#32 : BitVec 32) = 0x00000000#32) (r : Fin 256) :
    multiReduction (F := Ideal) .add [1] S256 v 0x00000000#32 reduces_S256x2048_S256 (.inl rfl) hacc (ix1 r)
      = ∑ j : Fin 2048, v (ix2 r j) := by
  refine (Ideal.multiReduction_add_single v 0x00000000#32 reduces_S256x2048_S256 (.inl rfl) hacc (ix1 r)).trans ?_
  refine Finset.sum_congr rfl fun k _ => congrArg v ?_
  funext a
  match a with
  | ⟨0, _⟩ => exact Fin.ext rfl
  | ⟨1, _⟩ => exact Fin.ext rfl

/-- A length-256 vector viewed as a 256 × 1 column reads, at `(r, z)`, the vector at `r`. -/
theorem col_apply {α : Type} (u : S256.Idx → α) (r : Fin 256) (z : Fin 1) :
    shapeCast S256x1 u shapeCasts_S256_S256x1 (ix2 r z) = u (ix1 r) :=
  shapeCast_apply u shapeCasts_S256_S256x1 _ _ (by
    have hzv : z.val = 0 := by omega
    rw [Shape.rowMajor_val_two, Shape.rowMajor_val_one]
    show r.val = r.val * 1 + z.val
    omega)

/-- A 256 × 1 column broadcast over 2048 columns reads, at `(r, j)`, the column at `r`. -/
theorem bcast_apply {α : Type} (w : S256x1.Idx → α) (r : Fin 256) (j : Fin 2048) :
    broadcastTo S256x2048 w broadcasts_S256x1_S256x2048 (ix2 r j) = w (ix2 r (0 : Fin 1)) := by
  refine broadcastTo_apply w broadcasts_S256x1_S256x2048 (ix2 r j) (ix2 r (0 : Fin 1)) fun ax => ?_
  match ax with
  | ⟨0, _⟩ => rfl
  | ⟨1, _⟩ => rfl

/-- A block rotated along its columns by `n` reads, at `(r, j)`, the block at `(r, j - n)` cyclically. -/
theorem rot_apply {α : Type} (n : BitVec 32) (v : S256x2048.Idx → α) (r : Fin 256) (j : Fin 2048) :
    dynamicRotate 1 n none v rotates_S256x2048_d1 (ix2 r j) = v (ix2 r (Pearson.rot n.toNat j)) := by
  unfold dynamicRotate
  refine congrArg v (funext fun b => ?_)
  match b with
  | ⟨0, _⟩ => rfl
  | ⟨1, _⟩ => exact Fin.ext rfl

/-- The inner product, along row `r`, of a block `b` rotated by `n` columns with a block `a`. -/
def dotAt (a b : FVec Ideal S256x2048 .f32) (r : Fin 256) (n : ℕ) : EReal :=
  ∑ j : Fin 2048, b (ix2 r (Pearson.rot n j)) * a (ix2 r j)

/-- One step of the running maximum: the accumulator column against the lane sum of the rotated product. -/
theorem step (acc : FVec Ideal S256x1 .f32) (n : BitVec 32) (v7 v19 : FVec Ideal S256x2048 .f32) (r : Fin 256) :
    maximumf acc (shapeCast S256x1 (multiReduction (F := Ideal) .add [1] S256
        (mulf (dynamicRotate 1 n none v19 rotates_S256x2048_d1) v7) 0x00000000#32 reduces_S256x2048_S256 (.inl rfl) rfl)
        shapeCasts_S256_S256x1) (ix2 r (0 : Fin 1))
      = max (acc (ix2 r (0 : Fin 1))) (dotAt v7 v19 r n.toNat) :=
  congrArg (max (acc (ix2 r (0 : Fin 1)))) ((col_apply _ r 0).trans ((rowSum_apply _ rfl r).trans
    (Finset.sum_congr rfl fun j _ => by rw [mulf_apply, rot_apply])))

/-- Rotating by nothing leaves every position in place. -/
theorem rot_zero (j : Fin 2048) : Pearson.rot 0 j = j := by
  apply Fin.ext
  have := j.isLt
  simp only [Pearson.rot]
  omega

/-- The step whose product is not rotated: rotation by zero columns. -/
theorem step0 (acc : FVec Ideal S256x1 .f32) (v7 v19 : FVec Ideal S256x2048 .f32) (r : Fin 256) :
    maximumf acc (shapeCast S256x1 (multiReduction (F := Ideal) .add [1] S256
        (mulf v19 v7) 0x00000000#32 reduces_S256x2048_S256 (.inl rfl) rfl)
        shapeCasts_S256_S256x1) (ix2 r (0 : Fin 1))
      = max (acc (ix2 r (0 : Fin 1))) (dotAt v7 v19 r 0) :=
  congrArg (max (acc (ix2 r (0 : Fin 1)))) ((col_apply _ r 0).trans ((rowSum_apply _ rfl r).trans
    (Finset.sum_congr rfl fun j _ => by rw [mulf_apply, rot_zero])))

/-- The centred block at `(r, j)` is the centred row `r` at `j`. -/
theorem pay2_apply (x : Vec Ideal S256x2048 .f32) (r : Fin 256) (j : Fin 2048) :
    k0_pay2 (F := Ideal) x (ix2 r j) = Pearson.ctr (fun j => x (ix2 r j)) j := by
  unfold k0_pay2
  show x (ix2 r j) - broadcastTo S256x2048 _ broadcasts_S256x1_S256x2048 (ix2 r j) = _
  rw [bcast_apply]
  show x (ix2 r j) - Ideal.div (shapeCast S256x1 _ shapeCasts_S256_S256x1 (ix2 r (0 : Fin 1))) _ = _
  rw [col_apply, rowSum_apply]
  rfl

/-- The other centred block at `(r, j)` is likewise the centred row `r` at `j`. -/
theorem pay3_apply (x : Vec Ideal S256x2048 .f32) (r : Fin 256) (j : Fin 2048) :
    k0_pay3 (F := Ideal) x (ix2 r j) = Pearson.ctr (fun j => x (ix2 r j)) j := by
  unfold k0_pay3
  show x (ix2 r j) - broadcastTo S256x2048 _ broadcasts_S256x1_S256x2048 (ix2 r j) = _
  rw [bcast_apply]
  show x (ix2 r j) - Ideal.div (shapeCast S256x1 _ shapeCasts_S256_S256x1 (ix2 r (0 : Fin 1))) _ = _
  rw [col_apply, rowSum_apply]
  rfl

/-- The running maximum over a list of rotation amounts, from a starting value. -/
def runMax (a b : FVec Ideal S256x2048 .f32) (r : Fin 256) (s : EReal) (l : List ℕ) : EReal :=
  l.foldl (fun m n => max m (dotAt a b r n)) s

/-- The accumulator after the first two rotations, at row `r`: the running maximum from -∞ over the amounts 2033, 2034. -/
theorem pay5_apply (x1 x0 : Vec Ideal S256x2048 .f32) (r : Fin 256) :
    k0_pay5 (F := Ideal) x1 x0 (ix2 r (0 : Fin 1))
      = runMax (k0_pay2 x1) (k0_pay3 x0) r Pearson.cNegInf [2033, 2034] := by
  unfold k0_pay5
  dsimp only
  rw [step, step]
  rfl

/-- Eight more rotations: the running maximum continued over the next eight amounts. -/
theorem pay6_apply (v7 v19 : FVec Ideal S256x2048 .f32) (v39 : FVec Ideal S256x1 .f32) (n : BitVec 32) (r : Fin 256) :
    k0_pay6 v7 v19 v39 n (ix2 r (0 : Fin 1))
      = runMax v7 v19 r (v39 (ix2 r (0 : Fin 1))) [n.toNat, 2036, 2037, 2038, 2039, 2040, 2041, 2042] := by
  unfold k0_pay6
  dsimp only
  rw [step, step, step, step, step, step, step, step]
  rfl

/-- The lane sum of the product rotated by 2043 columns, at row `r`. -/
theorem pay7_apply (v7 v19 : FVec Ideal S256x2048 .f32) (r : Fin 256) :
    k0_pay7 v7 v19 (ix1 r) = dotAt v7 v19 r 2043 := by
  unfold k0_pay7
  refine (rowSum_apply _ rfl r).trans (Finset.sum_congr rfl fun j _ => ?_)
  rw [mulf_apply, rot_apply]
  rfl

/-- Eight more steps, the fifth of them unrotated: the running maximum continued over 2044, …, 2047, 0, 1, 2, 3. -/
theorem pay8_apply (v7 v19 : FVec Ideal S256x2048 .f32) (v79 : FVec Ideal S256x1 .f32) (v82 : FVec Ideal S256 .f32) (r : Fin 256) :
    k0_pay8 v7 v19 v79 v82 (ix2 r (0 : Fin 1))
      = runMax v7 v19 r (max (v79 (ix2 r (0 : Fin 1))) (v82 (ix1 r))) [2044, 2045, 2046, 2047, 0, 1, 2, 3] := by
  unfold k0_pay8
  dsimp only
  rw [step, step, step, step0, step, step, step, step]
  rw [maximumf_apply, col_apply]
  rfl

/-- The product rotated by 4 columns, at `(r, j)`. -/
theorem pay9_apply (v7 v19 : FVec Ideal S256x2048 .f32) (r : Fin 256) (j : Fin 2048) :
    k0_pay9 v7 v19 (ix2 r j) = v19 (ix2 r (Pearson.rot 4 j)) * v7 (ix2 r j) := by
  unfold k0_pay9
  dsimp only
  rw [mulf_apply, rot_apply]
  rfl

/-- Eight more steps, the first from a product already formed: the running maximum continued over 5, …, 12. -/
theorem pay10_apply (v7 v19 : FVec Ideal S256x2048 .f32) (v123 : FVec Ideal S256x1 .f32) (v125 : FVec Ideal S256x2048 .f32) (r : Fin 256) :
    k0_pay10 v7 v19 v123 v125 (ix2 r (0 : Fin 1))
      = runMax v7 v19 r (max (v123 (ix2 r (0 : Fin 1))) (∑ j : Fin 2048, v125 (ix2 r j))) [5, 6, 7, 8, 9, 10, 11, 12] := by
  unfold k0_pay10
  dsimp only
  rw [step, step, step, step, step, step, step, step]
  rw [maximumf_apply, col_apply, rowSum_apply]
  rfl

/-- The last three steps, the scaling by the reciprocal of the norms' product and the clamp below at -1. -/
theorem pay1_apply (v7 v19 : FVec Ideal S256x2048 .f32) (v28 v168 : FVec Ideal S256x1 .f32) (n : BitVec 32) (r : Fin 256) :
    k0_pay1 v7 v19 v28 v168 n (ix2 r (0 : Fin 1))
      = max (runMax v7 v19 r (v168 (ix2 r (0 : Fin 1))) [n.toNat, 14, 15] * v28 (ix2 r (0 : Fin 1))) Pearson.cNegOne := by
  unfold k0_pay1
  dsimp only
  rw [maximumf_apply, mulf_apply]
  rw [step, step, step]
  rfl
/-- A fold of a commutative associative operation over all of `Fin n` is the left fold over `0, …, n - 1` in order. -/
theorem fold_univ_eq_foldl {β : Type} (op : β → β → β) [Std.Commutative op] [Std.Associative op] (b : β) (n : ℕ) (f : Fin n → β) :
    (Finset.univ : Finset (Fin n)).fold op b f = (List.finRange n).foldl (fun a i => op a (f i)) b := by
  rw [Fin.univ_def]
  show Multiset.fold op b (Multiset.map f (List.finRange n : Multiset (Fin n))) = _
  rw [Multiset.map_coe, Multiset.coe_fold_l, List.foldl_map]

/-- The 31 rotation amounts in order. -/
theorem amts : (List.finRange 31).map Pearson.amt
    = [2033, 2034, 2035, 2036, 2037, 2038, 2039, 2040, 2041, 2042, 2043, 2044, 2045, 2046, 2047,
       0, 1, 2, 3, 4, 5, 6, 7, 8, 9, 10, 11, 12, 13, 14, 15] := by
  decide

/-- The largest of the 31 values `g (amt i)` is the running maximum of `g` along the list of amounts. -/
theorem fold_amt (b : EReal) (g : ℕ → EReal) :
    (Finset.univ : Finset (Fin 31)).fold max b (fun i => g (Pearson.amt i))
      = [2033, 2034, 2035, 2036, 2037, 2038, 2039, 2040, 2041, 2042, 2043, 2044, 2045, 2046, 2047,
         0, 1, 2, 3, 4, 5, 6, 7, 8, 9, 10, 11, 12, 13, 14, 15].foldl (fun m n => max m (g n)) b := by
  rw [fold_univ_eq_foldl, ← amts, List.foldl_map]

/-- The root of the sum of squares of row `r` of a block plus the small literal. -/
theorem sqNorm_apply (v : FVec Ideal S256x2048 .f32) (r : Fin 256) :
    sqrt (addf (shapeCast S256x1 (multiReduction (F := Ideal) .add [1] S256 (mulf v v) 0x00000000#32
        reduces_S256x2048_S256 (.inl rfl) rfl) shapeCasts_S256_S256x1)
        (broadcast S256x1 (Scalar.ofBits .f32 0x322BCC77#32))) (ix2 r (0 : Fin 1))
      = Ideal.sqrt ((∑ j : Fin 2048, v (ix2 r j) * v (ix2 r j)) + Pearson.cEps) := by
  show Ideal.sqrt (shapeCast S256x1 _ shapeCasts_S256_S256x1 (ix2 r (0 : Fin 1)) + _) = _
  rw [col_apply, rowSum_apply]
  rfl

/-- The reciprocal of the two norms' product, at row `r`. -/
theorem pay4_apply (x1 x0 : Vec Ideal S256x2048 .f32) (r : Fin 256) :
    k0_pay4 (F := Ideal) x1 x0 (ix2 r (0 : Fin 1))
      = Ideal.div Pearson.cOne (Pearson.nrm (fun j => x0 (ix2 r j)) * Pearson.nrm (fun j => x1 (ix2 r j))) := by
  unfold k0_pay4
  dsimp only
  rw [divf_apply, mulf_apply, sqNorm_apply, sqNorm_apply]
  simp only [pay2_apply, pay3_apply]
  rfl

/-- A running maximum continued is the running maximum over the concatenated list. -/
theorem runMax_append (a b : FVec Ideal S256x2048 .f32) (r : Fin 256) (s : EReal) (l₁ l₂ : List ℕ) :
    runMax a b r (runMax a b r s l₁) l₂ = runMax a b r s (l₁ ++ l₂) := by
  unfold runMax
  rw [List.foldl_append]

/-- One more amount at the end of a running maximum. -/
theorem runMax_snoc (a b : FVec Ideal S256x2048 .f32) (r : Fin 256) (s : EReal) (l : List ℕ) (n : ℕ) :
    max (runMax a b r s l) (dotAt a b r n) = runMax a b r s (l ++ [n]) := by
  unfold runMax
  rw [List.foldl_append]
  rfl

/-- The inner product of the centred blocks along row `r` is the inner product of the centred rows. -/
theorem dotAt_ctr (x0 x1 : Vec Ideal S256x2048 .f32) (r : Fin 256) (n : ℕ) :
    dotAt (k0_pay2 x1) (k0_pay3 x0) r n
      = ∑ j : Fin 2048, Pearson.ctr (fun j => x0 (ix2 r j)) (Pearson.rot n j) * Pearson.ctr (fun j => x1 (ix2 r j)) j := by
  unfold dotAt
  simp only [pay2_apply, pay3_apply]

/-- The per-row value with its 31 inner products listed in order. -/
theorem kRow_eq (p t : Pearson.Row) :
    Pearson.kRow p t
      = max (([2033, 2034, 2035, 2036, 2037, 2038, 2039, 2040, 2041, 2042, 2043, 2044, 2045, 2046, 2047,
          0, 1, 2, 3, 4, 5, 6, 7, 8, 9, 10, 11, 12, 13, 14, 15].foldl
            (fun m n => max m (∑ j : Fin 2048, Pearson.ctr p (Pearson.rot n j) * Pearson.ctr t j)) Pearson.cNegInf)
          * Ideal.div Pearson.cOne (Pearson.nrm p * Pearson.nrm t)) Pearson.cNegOne := by
  have h := fold_amt Pearson.cNegInf (fun n => ∑ j : Fin 2048, Pearson.ctr p (Pearson.rot n j) * Pearson.ctr t j)
  unfold Pearson.kRow
  rw [show Pearson.cov p t
      = fun i => (fun n => ∑ j : Fin 2048, Pearson.ctr p (Pearson.rot n j) * Pearson.ctr t j) (Pearson.amt i) from rfl, h]

/-- Row r of the output block is the per-row value of row r of the two input blocks. -/
theorem out0_2_apply (x0 x1 : Vec Ideal S256x2048 .f32) (r : Fin 256) :
    Gen.out0_2 (F := Ideal) x0 x1 (ix2 r (0 : Fin 1)) = Pearson.kRow (fun j => x0 (ix2 r j)) (fun j => x1 (ix2 r j)) := by
  unfold Gen.out0_2
  rw [View.canon_unit_zero hz]
  simp only [View.ld_unit_zero (S := S256x2048) hz]
  rw [pay1_apply, pay10_apply, pay8_apply, pay6_apply, pay5_apply, pay7_apply, pay4_apply]
  simp only [pay9_apply]
  rw [show (∑ j : Fin 2048, k0_pay3 x0 (ix2 r (Pearson.rot 4 j)) * k0_pay2 x1 (ix2 r j))
      = dotAt (k0_pay2 x1) (k0_pay3 x0) r 4 from rfl]
  rw [runMax_append, runMax_snoc, runMax_append, runMax_snoc, runMax_append, runMax_append]
  rw [kRow_eq]
  unfold runMax
  simp only [dotAt_ctr]
  rfl

end Cert.KernelIdeal.KRow

end
-- ==== Proof.KernelArr.lean ====
/-
  From the output blocks to the output array.  Grid point t of 8 handles rows 256·t … 256·t + 255:
  it reads those rows of both arguments and writes those rows of the [2048,1] output.  Given that row r
  of a point's output block is the per-row value of row r of its two input blocks, the output array
  after the run holds, at row R, the per-row value of row R of the two argument arrays.
-/
import proofs.«418355_j68856915689812_3_alg».proof.Proof.Gen.KernelIdeal.Frame
import proofs.«418355_j68856915689812_3_alg».proof.Proof.Spec
import Idealize.ShloMosaic.Lib.ValueIdx
import Idealize.ShloMosaic.Lib.Pipeline.Value

set_option maxRecDepth 16384

noncomputable section

namespace Cert.KernelIdeal.KArr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The per-row value of the rows of two [2048,2048] arrays, as a [2048,1] array. -/
def G (P T : S2048x2048.Idx → EReal) : S2048x1.Idx → EReal := fun i =>
  Pearson.kRow (fun j => P (ix2 (⟨(i 0).val, idx2_lt0 i⟩ : Fin 2048) j)) (fun j => T (ix2 (⟨(i 0).val, idx2_lt0 i⟩ : Fin 2048) j))

/-- The printed index maps over the 8 grid points: every window's block row is the point, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ q : Fin 8, ∃ t : Fin cfg0.N, t.val = q.val :=
  (by decide +kernel : ∀ q : Fin 8, ∃ t : Fin grid0.N, t.val = q.val)

/-- Row r, column j of point t's block of the first argument is row 256·t + r, column j of the array. -/
theorem read0 (c : Dev nD) (t : Fin cfg0.N) (r : Fin 256) (j : Fin 2048) (h : t.val * 256 + r.val < 2048) :
    iblk m c 0 t (ix2 r j) = V m c main_arg0 (ix2 (⟨t.val * 256 + r.val, h⟩ : Fin 2048) j) := by
  obtain ⟨e0, e1, -, -, -, -⟩ := idx_facts t
  show V m c main_arg0 (((cfg0.win 0).blk t).view.emb (ix2 r j)) = V m c main_arg0 _
  refine congrArg _ ?_
  funext a; apply Fin.ext
  match a with
  | ⟨0, _⟩ => show win0_0.index t (0 : Fin 2) * 256 + 1 * r.val = t.val * 256 + r.val; omega
  | ⟨1, _⟩ => show win0_0.index t (1 : Fin 2) * 2048 + 1 * j.val = j.val; omega

/-- The same for the second argument. -/
theorem read1 (c : Dev nD) (t : Fin cfg0.N) (r : Fin 256) (j : Fin 2048) (h : t.val * 256 + r.val < 2048) :
    iblk m c 1 t (ix2 r j) = V m c main_arg1 (ix2 (⟨t.val * 256 + r.val, h⟩ : Fin 2048) j) := by
  obtain ⟨-, -, e0, e1, -, -⟩ := idx_facts t
  show V m c main_arg1 (((cfg0.win 1).blk t).view.emb (ix2 r j)) = V m c main_arg1 _
  refine congrArg _ ?_
  funext a; apply Fin.ext
  match a with
  | ⟨0, _⟩ => show win0_1.index t (0 : Fin 2) * 256 + 1 * r.val = t.val * 256 + r.val; omega
  | ⟨1, _⟩ => show win0_1.index t (1 : Fin 2) * 2048 + 1 * j.val = j.val; omega

/-- The hypothesis this module works under: row r of a point's output block is the per-row value of row r of
    its input blocks (proved over the kernel body elsewhere). -/
def RowFact : Prop := ∀ (x0 x1 : Vec Ideal S256x2048 .f32) (r : Fin 256),
  out0_2 (F := Ideal) x0 x1 (ix2 r (0 : Fin 1)) = Pearson.kRow (fun j => x0 (ix2 r j)) (fun j => x1 (ix2 r j))

/-- What point t writes back is block t of `G` of the argument arrays. -/
theorem flushed_eq (hrow : RowFact) (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  obtain ⟨-, -, -, -, e0, e1⟩ := idx_facts t
  funext y
  obtain ⟨r, q, rfl⟩ : ∃ (r : Fin 256) (q : Fin 1), y = ix2 r q := ⟨y 0, y 1, eq_ix2 y⟩
  obtain rfl : q = 0 := Subsingleton.elim _ _
  have ht : t.val < 8 := t.isLt
  have hlt : t.val * 256 + r.val < 2048 := by have := r.isLt; omega
  show out0_2 (F := Ideal) (iblk m c 0 t) (iblk m c 1 t) (ix2 r (0 : Fin 1)) = G (V m c main_arg0) (V m c main_arg1) (((cfg0.win 2).blk t).view.emb (ix2 r (0 : Fin 1)))
  refine (hrow (iblk m c 0 t) (iblk m c 1 t) r).trans ?_
  have hemb : ((((cfg0.win 2).blk t).view.emb (ix2 r (0 : Fin 1))) 0).val = t.val * 256 + r.val := by
    show win0_2.index t (0 : Fin 2) * 256 + 1 * r.val = _; omega
  unfold G
  have hR : (⟨((((cfg0.win 2).blk t).view.emb (ix2 r (0 : Fin 1))) 0).val, idx2_lt0 _⟩ : Fin 2048) = ⟨t.val * 256 + r.val, hlt⟩ := Fin.ext hemb
  rw [hR]
  congr 1
  · funext j; exact read0 m c t r j hlt
  · funext j; exact read1 m c t r j hlt

/-- An index of the output array is in point t's block iff its row is among the point's 256 rows. -/
theorem mem_blk (t : Fin cfg0.N) (i : S2048x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- Every index of the output array is in some point's block. -/
theorem cover (i : S2048x1.Idx) : ∃ t : Fin cfg0.N, (cfg0.win 2).flush t = true ∧ i ∈ ((cfg0.win 2).blk t).view.set := by
  have hi0 : (i 0).val < 2048 := idx2_lt0 i
  have hi1 : (i 1).val < 1 := idx2_lt1 i
  obtain ⟨t, ht⟩ := idx_onto ⟨(i 0).val / 256, by omega⟩
  have ht' : t.val = (i 0).val / 256 := ht
  obtain ⟨-, -, -, -, e0, e1⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- The output array after the run: the per-row value of the argument arrays' rows. -/
theorem final (hrow : RowFact) (c : Dev nD) :
    (dats m 0 c).arrAt 2 cfg0.N = G (m ((c : Thread nD τ).loc main_arg0)) (m ((c : Thread nD τ).loc main_arg1)) := by
  have h := (dats m 0 c).arrAt_eq_of_cover 2 (G (V m c main_arg0) (V m c main_arg1)) (fun t _ => flushed_eq m hrow c t) cover
  rw [h, V_main_arg0, V_main_arg1]

end Cert.KernelIdeal.KArr

end
-- ==== Proof.KernelRun.lean ====
/-
  The program's result from the output array.  After the launch the program sums the [2048,1]
  output array, divides by 2048 and subtracts from 1.  With the output array known row by row, the
  result is one minus the mean over the rows of the per-row value.
-/
import proofs.«418355_j68856915689812_3_alg».proof.Proof.KernelArr
import Idealize.ShloMosaic.Lib.StableHlo.Run
import Idealize.ShloMosaic.PureOps.Ideal.Laws

set_option maxRecDepth 16384

noncomputable section

namespace Cert.KernelIdeal.KRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KArr

variable (m : (ℓ : Loc nD τ sig) → Buf (Elt Ideal) ℓ) (ρ : Dev nD → PrngReg)

/-- The operations after the launch, as one function of the output array. -/
def tail (A : (⟨S2048x1, .f32⟩ : BufTy).Contents (Elt Ideal)) : (⟨S_, .f32⟩ : BufTy).Contents (Elt Ideal) :=
  subf (constant (F := Ideal) S_ .f32 0x3F800000#32)
    (Host.divf (Host.reduceAdd (F := Ideal) A (constant (F := Ideal) S_ .f32 0x00000000#32) reducesTo_S2048x1_S_d0_1 h_S_)
      (constant (F := Ideal) S_ .f32 0x45000000#32))

/-- The result buffer after the operations that follow the launch. -/
theorem tail_result (hrow : RowFact) (c : Dev nD) :
    Pipeline.afterTail₀ cfgs (dats m) 0 (V0 m) [hostOps1] c main_v3
      = tail (G (m ((c : Thread nD τ).loc main_arg0)) (m ((c : Thread nD τ).loc main_arg1))) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.tc.devRef main_v0)
      = G (m ((c : Thread nD τ).loc main_arg0)) (m ((c : Thread nD τ).loc main_arg1)) :=
    (Pipeline.withArrays_arr spec0 launch0.win.arr_inj c _ _ 2).trans (final m hrow c)
  rw [hA]
  rfl

/-- The sum over a [2048,1] array is the sum over its 2048 rows. -/
theorem sum_col (A : S2048x1.Idx → EReal) : ∑ i, A i = ∑ r : Fin 2048, A (ix2 r (0 : Fin 1)) := by
  rw [sum_idx2]
  refine Finset.sum_congr rfl fun r _ => ?_
  rw [Fin.sum_univ_one]

/-- The tail of the per-row array is the loss. -/
theorem tail_G (P T : S2048x2048.Idx → EReal) :
    tail (G P T) = fun _ => Pearson.loss Pearson.kRow (Pearson.rows P) (Pearson.rows T) := by
  funext i
  unfold tail Pearson.loss
  show Pearson.cOne - Ideal.div (Ideal.hostReduceAdd reducesTo_S2048x1_S_d0_1 (G P T) (Ideal.ofBits .f32 0x00000000#32) _) Pearson.cN = _
  rw [Ideal.hostReduceAdd_total _ (fun b => b.elim0), Ideal.ofBits_zero_f32, zero_add, sum_col]
  rfl

/-- The kernel program's run: the result is the loss of the per-row value, the arguments unchanged. -/
theorem run (hrow : RowFact) :
    θ_run defs (onTc (τ := τ) (main (F := Ideal))) ⟨m, fun _ => 0, ρ⟩ fun r => ∀ c : Dev nD,
      r.2.mem ((c.tc : Thread nD τ).loc main_v3)
          = (fun _ => Pearson.loss Pearson.kRow (Pearson.rows (m ((c.tc : Thread nD τ).loc main_arg0))) (Pearson.rows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans
          ((tail_result m hrow c).trans (tail_G _ _)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KRun

end
-- ==== Proof.RefTerm.lean ====
/-
  The reference program's result as ONE term of its two argument arrays, stage by stage in the
  program's own operations: the centred targets and their norms; the table of 31 start columns
  (integer arithmetic on an iota, no argument involved); the 31 rotated copies of the predictions,
  gathered from the predictions laid twice side by side; each copy centred, its norm, its inner
  product with the centred targets; the 31 quotients; their maximum per row, clamped at -1; and one
  minus the mean of that over the rows.
-/
import proofs.«418355_j68856915689812_3_alg».proof.ReferenceIdeal

noncomputable section

namespace Cert.ReferenceIdeal.Term

open Cert.ReferenceIdeal Idealize.ShloMosaic
open Facts₀ Facts

variable {F : FTy → Type} [FloatOps F] [Facts]

/-! ## The start columns (integers only) -/

/-- The 31 shifts -15, …, 15: an iota plus -15. -/
def shifts : (⟨S31, .i32⟩ : BufTy).Contents (Elt F) :=
  addi (broadcastInDim S31 ![] bcast_S_S31 (constantI S_ 32 4294967281#32 : (⟨S_, .i32⟩ : BufTy).Contents (Elt F)) : (⟨S31, .i32⟩ : BufTy).Contents (Elt F)) (iotaInDim S31 32 0)

/-- The shifts through a column and back (a broadcast to [31,1], a whole slice, a reshape to [31]). -/
def shifts' : (⟨S31, .i32⟩ : BufTy).Contents (Elt F) :=
  shapeCast S31 (extractStridedSlice S31x1 ![0, 0] (broadcastInDim S31x1 ![0] bcast_S31_S31x1_0 (shifts (F := F)) : (⟨S31x1, .i32⟩ : BufTy).Contents (Elt F)) slices_S31x1_S31x1_0_0 : (⟨S31x1, .i32⟩ : BufTy).Contents (Elt F)) shapeCasts_S31x1_S31

/-- The modulus: the maximum of 2048 and 1. -/
def modulus : (⟨S_, .i32⟩ : BufTy).Contents (Elt F) := maxsi (constantI S_ 32 2048#32 : (⟨S_, .i32⟩ : BufTy).Contents (Elt F)) (constantI S_ 32 1#32)

/-- The divisor the remainder is taken by: 1 where the modulus is 0, else the modulus. -/
def divisor : (⟨S_, .i32⟩ : BufTy).Contents (Elt F) :=
  select (cmpi .eq (modulus (F := F)) (constantI S_ 32 0#32 : (⟨S_, .i32⟩ : BufTy).Contents (Elt F)) : (⟨S_, .i1⟩ : BufTy).Contents (Elt F)) (constantI S_ 32 1#32 : (⟨S_, .i32⟩ : BufTy).Contents (Elt F)) (modulus (F := F))

/-- The truncated remainder of each shift by the divisor. -/
def rem0 : (⟨S31, .i32⟩ : BufTy).Contents (Elt F) :=
  Host.remsi (shifts' (F := F)) (broadcastInDim S31 ![] bcast_S_S31 (divisor (F := F)) : (⟨S31, .i32⟩ : BufTy).Contents (Elt F))

/-- The zero vector the remainder is compared with. -/
def zeros31 : (⟨S31, .i32⟩ : BufTy).Contents (Elt F) := broadcastInDim S31 ![] bcast_S_S31 (constantI S_ 32 0#32 : (⟨S_, .i32⟩ : BufTy).Contents (Elt F))

/-- The floored remainder: the truncated one, plus the divisor where it is not zero and its sign differs from the divisor's. -/
def remFloor : (⟨S31, .i32⟩ : BufTy).Contents (Elt F) :=
  select
    (andi
      (cmpi .ne (cmpi .slt (rem0 (F := F)) (zeros31 (F := F)) : (⟨S31, .i1⟩ : BufTy).Contents (Elt F))
        (broadcastInDim S31 ![] bcast_S_S31 (cmpi .slt (divisor (F := F)) (constantI S_ 32 0#32 : (⟨S_, .i32⟩ : BufTy).Contents (Elt F)) : (⟨S_, .i1⟩ : BufTy).Contents (Elt F)) : (⟨S31, .i1⟩ : BufTy).Contents (Elt F)) : (⟨S31, .i1⟩ : BufTy).Contents (Elt F))
      (cmpi .ne (rem0 (F := F)) (zeros31 (F := F)) : (⟨S31, .i1⟩ : BufTy).Contents (Elt F)) : (⟨S31, .i1⟩ : BufTy).Contents (Elt F))
    (addi (rem0 (F := F)) (broadcastInDim S31 ![] bcast_S_S31 (divisor (F := F)) : (⟨S31, .i32⟩ : BufTy).Contents (Elt F)) : (⟨S31, .i32⟩ : BufTy).Contents (Elt F))
    (rem0 (F := F))

/-- 2048 minus the floored remainder. -/
def startRaw : (⟨S31, .i32⟩ : BufTy).Contents (Elt F) :=
  subi (broadcastInDim S31 ![] bcast_S_S31 (constantI S_ 32 2048#32 : (⟨S_, .i32⟩ : BufTy).Contents (Elt F)) : (⟨S31, .i32⟩ : BufTy).Contents (Elt F)) (remFloor (F := F))

/-- The start column of each rotated copy: the raw one, plus 4096 where it is negative. -/
def startCol : (⟨S31, .i32⟩ : BufTy).Contents (Elt F) :=
  select (cmpi .slt (startRaw (F := F)) (zeros31 (F := F)) : (⟨S31, .i1⟩ : BufTy).Contents (Elt F))
    (addi (startRaw (F := F)) (broadcastInDim S31 ![] bcast_S_S31 (constantI S_ 32 4096#32 : (⟨S_, .i32⟩ : BufTy).Contents (Elt F)) : (⟨S31, .i32⟩ : BufTy).Contents (Elt F)) : (⟨S31, .i32⟩ : BufTy).Contents (Elt F))
    (startRaw (F := F))

/-- The table of start indices: row 0, the start column. -/
def starts : (⟨S31x2, .i32⟩ : BufTy).Contents (Elt F) :=
  concatenate S31x2 1
    [⟨S31x1, (broadcastInDim S31x1 ![] bcast_S_S31x1 (constantI S_ 32 0#32 : (⟨S_, .i32⟩ : BufTy).Contents (Elt F)) : (⟨S31x1, .i32⟩ : BufTy).Contents (Elt F))⟩,
     ⟨S31x1, (broadcastInDim S31x1 ![0] bcast_S31_S31x1_0 (startCol (F := F)) : (⟨S31x1, .i32⟩ : BufTy).Contents (Elt F))⟩]
    concatenates_S31x1_S31x1_S31x2_d1

/-! ## The float stages -/

/-- The predictions laid twice side by side, and the 31 windows of 2048 columns gathered from that. -/
def gathered (P : (⟨S2048x2048, .f32⟩ : BufTy).Contents (Elt F)) : (⟨S31x2048x2048, .f32⟩ : BufTy).Contents (Elt F) :=
  Host.gather gather_S2048x4096_S31x2_S31x2048x2048_12_n_n_n_01_1_20482048
    (concatenate S2048x4096 1 [⟨S2048x2048, P⟩, ⟨S2048x2048, P⟩] concatenates_S2048x2048_S2048x2048_S2048x4096_d1 : (⟨S2048x4096, .f32⟩ : BufTy).Contents (Elt F))
    (starts (F := F))

/-- The targets, each row minus its mean. -/
def tcArr (T : (⟨S2048x2048, .f32⟩ : BufTy).Contents (Elt F)) : (⟨S2048x2048, .f32⟩ : BufTy).Contents (Elt F) :=
  subf T (broadcastInDim S2048x2048 ![0, 1] bcast_S2048x1_S2048x2048_0_1
    (Host.divf (broadcastInDim S2048x1 ![0] bcast_S2048_S2048x1_0
        (Host.reduceAdd T (constant S_ .f32 0x00000000#32 : (⟨S_, .f32⟩ : BufTy).Contents (Elt F)) reducesTo_S2048x2048_S2048_d1 h_S_ : (⟨S2048, .f32⟩ : BufTy).Contents (Elt F)) : (⟨S2048x1, .f32⟩ : BufTy).Contents (Elt F))
      (broadcastInDim S2048x1 ![] bcast_S_S2048x1 (constant S_ .f32 0x45000000#32 : (⟨S_, .f32⟩ : BufTy).Contents (Elt F)) : (⟨S2048x1, .f32⟩ : BufTy).Contents (Elt F)) : (⟨S2048x1, .f32⟩ : BufTy).Contents (Elt F)) : (⟨S2048x2048, .f32⟩ : BufTy).Contents (Elt F))

/-- The norm of each centred target row. -/
def stdT (T : (⟨S2048x2048, .f32⟩ : BufTy).Contents (Elt F)) : (⟨S2048, .f32⟩ : BufTy).Contents (Elt F) :=
  Host.sqrt (addf
    (Host.reduceAdd (mulf (tcArr T) (tcArr T) : (⟨S2048x2048, .f32⟩ : BufTy).Contents (Elt F)) (constant S_ .f32 0x00000000#32 : (⟨S_, .f32⟩ : BufTy).Contents (Elt F)) reducesTo_S2048x2048_S2048_d1 h_S_ : (⟨S2048, .f32⟩ : BufTy).Contents (Elt F))
    (broadcastInDim S2048 ![] bcast_S_S2048 (constant S_ .f32 0x322BCC77#32 : (⟨S_, .f32⟩ : BufTy).Contents (Elt F)) : (⟨S2048, .f32⟩ : BufTy).Contents (Elt F)) : (⟨S2048, .f32⟩ : BufTy).Contents (Elt F))

/-- Each rotated copy of the predictions, each row minus its mean. -/
def pcArr (P : (⟨S2048x2048, .f32⟩ : BufTy).Contents (Elt F)) : (⟨S31x2048x2048, .f32⟩ : BufTy).Contents (Elt F) :=
  subf (gathered P) (broadcastInDim S31x2048x2048 ![0, 1, 2] bcast_S31x2048x1_S31x2048x2048_0_1_2
    (Host.divf (broadcastInDim S31x2048x1 ![0, 1] bcast_S31x2048_S31x2048x1_0_1
        (Host.reduceAdd (gathered P) (constant S_ .f32 0x00000000#32 : (⟨S_, .f32⟩ : BufTy).Contents (Elt F)) reducesTo_S31x2048x2048_S31x2048_d2 h_S_ : (⟨S31x2048, .f32⟩ : BufTy).Contents (Elt F)) : (⟨S31x2048x1, .f32⟩ : BufTy).Contents (Elt F))
      (broadcastInDim S31x2048x1 ![] bcast_S_S31x2048x1 (constant S_ .f32 0x45000000#32 : (⟨S_, .f32⟩ : BufTy).Contents (Elt F)) : (⟨S31x2048x1, .f32⟩ : BufTy).Contents (Elt F)) : (⟨S31x2048x1, .f32⟩ : BufTy).Contents (Elt F)) : (⟨S31x2048x2048, .f32⟩ : BufTy).Contents (Elt F))

/-- The norm of each centred rotated row. -/
def stdP (P : (⟨S2048x2048, .f32⟩ : BufTy).Contents (Elt F)) : (⟨S31x2048, .f32⟩ : BufTy).Contents (Elt F) :=
  Host.sqrt (addf
    (Host.reduceAdd (mulf (pcArr P) (pcArr P) : (⟨S31x2048x2048, .f32⟩ : BufTy).Contents (Elt F)) (constant S_ .f32 0x00000000#32 : (⟨S_, .f32⟩ : BufTy).Contents (Elt F)) reducesTo_S31x2048x2048_S31x2048_d2 h_S_ : (⟨S31x2048, .f32⟩ : BufTy).Contents (Elt F))
    (broadcastInDim S31x2048 ![] bcast_S_S31x2048 (constant S_ .f32 0x322BCC77#32 : (⟨S_, .f32⟩ : BufTy).Contents (Elt F)) : (⟨S31x2048, .f32⟩ : BufTy).Contents (Elt F)) : (⟨S31x2048, .f32⟩ : BufTy).Contents (Elt F))

/-- The inner product of each centred rotated row with the centred target row. -/
def covArr (P T : (⟨S2048x2048, .f32⟩ : BufTy).Contents (Elt F)) : (⟨S31x2048, .f32⟩ : BufTy).Contents (Elt F) :=
  Host.reduceAdd
    (mulf (pcArr P)
      (broadcastInDim S31x2048x2048 ![0, 1, 2] bcast_S1x2048x2048_S31x2048x2048_0_1_2
        (broadcastInDim S1x2048x2048 ![1, 2] bcast_S2048x2048_S1x2048x2048_1_2 (tcArr T) : (⟨S1x2048x2048, .f32⟩ : BufTy).Contents (Elt F)) : (⟨S31x2048x2048, .f32⟩ : BufTy).Contents (Elt F)) : (⟨S31x2048x2048, .f32⟩ : BufTy).Contents (Elt F))
    (constant S_ .f32 0x00000000#32 : (⟨S_, .f32⟩ : BufTy).Contents (Elt F)) reducesTo_S31x2048x2048_S31x2048_d2 h_S_

/-- The 31 quotients per row. -/
def pearson (P T : (⟨S2048x2048, .f32⟩ : BufTy).Contents (Elt F)) : (⟨S31x2048, .f32⟩ : BufTy).Contents (Elt F) :=
  Host.divf (covArr P T)
    (mulf (stdP P)
      (broadcastInDim S31x2048 ![0, 1] bcast_S1x2048_S31x2048_0_1
        (broadcastInDim S1x2048 ![1] bcast_S2048_S1x2048_1 (stdT T) : (⟨S1x2048, .f32⟩ : BufTy).Contents (Elt F)) : (⟨S31x2048, .f32⟩ : BufTy).Contents (Elt F)) : (⟨S31x2048, .f32⟩ : BufTy).Contents (Elt F))

/-- The largest quotient per row, clamped below at -1. -/
def best (P T : (⟨S2048x2048, .f32⟩ : BufTy).Contents (Elt F)) : (⟨S2048, .f32⟩ : BufTy).Contents (Elt F) :=
  maximumf
    (Host.reduce FloatOps.maximumf (pearson P T) (constant S_ .f32 0xFF800000#32 : (⟨S_, .f32⟩ : BufTy).Contents (Elt F)) reducesTo_S31x2048_S2048_d0 h_S_ : (⟨S2048, .f32⟩ : BufTy).Contents (Elt F))
    (broadcastInDim S2048 ![] bcast_S_S2048 (constant S_ .f32 0xBF800000#32 : (⟨S_, .f32⟩ : BufTy).Contents (Elt F)) : (⟨S2048, .f32⟩ : BufTy).Contents (Elt F))

/-- One minus the mean of that over the rows: the program's result. -/
def out (P T : (⟨S2048x2048, .f32⟩ : BufTy).Contents (Elt F)) : (⟨S_, .f32⟩ : BufTy).Contents (Elt F) :=
  subf (constant S_ .f32 0x3F800000#32 : (⟨S_, .f32⟩ : BufTy).Contents (Elt F))
    (Host.divf
      (Host.reduceAdd (best P T) (constant S_ .f32 0x00000000#32 : (⟨S_, .f32⟩ : BufTy).Contents (Elt F)) reducesTo_S2048_S_d0 h_S_ : (⟨S_, .f32⟩ : BufTy).Contents (Elt F))
      (constant S_ .f32 0x45000000#32 : (⟨S_, .f32⟩ : BufTy).Contents (Elt F)) : (⟨S_, .f32⟩ : BufTy).Contents (Elt F))

end Cert.ReferenceIdeal.Term

end
-- ==== Proof.RefRun.lean ====
/-
  The reference program's run, operation by operation: @main's own operations in order, with the
  operations of the rotation (the table of start columns, the doubled predictions, the gather), of the
  floored remainder inside it, and of the selection inside that, each written at the place of its call
  over that call's buffers. Every execution ends with the result buffer at the one term of the two
  argument arrays that states the result stage by stage, and the arguments unchanged.
-/
import proofs.«418355_j68856915689812_3_alg».proof.Proof.Gen.ReferenceIdeal
import proofs.«418355_j68856915689812_3_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The 96 operations, in order. -/
abbrev ops : List (HloOp τ sig (Elt F)) :=
  [ nullary main_cst (constant S_ .f32 0x00000000#32),
    binary main_arg1 main_cst main_v0 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v0 main_v1 (broadcastInDim S2048x1 ![0] bcast_S2048_S2048x1_0 : (⟨S2048, .f32⟩ : BufTy).Contents (Elt F) → (⟨S2048x1, .f32⟩ : BufTy).Contents (Elt F)),
    nullary main_cst_0 (constant S_ .f32 0x45000000#32),
    unary main_cst_0 main_v2 (broadcastInDim S2048x1 ![] bcast_S_S2048x1 : (⟨S_, .f32⟩ : BufTy).Contents (Elt F) → (⟨S2048x1, .f32⟩ : BufTy).Contents (Elt F)),
    binary main_v1 main_v2 main_v3 (Host.divf : (⟨S2048x1, .f32⟩ : BufTy).Contents (Elt F) → (⟨S2048x1, .f32⟩ : BufTy).Contents (Elt F) → (⟨S2048x1, .f32⟩ : BufTy).Contents (Elt F)),
    unary main_v3 main_v4 (broadcastInDim S2048x2048 ![0, 1] bcast_S2048x1_S2048x2048_0_1 : (⟨S2048x1, .f32⟩ : BufTy).Contents (Elt F) → (⟨S2048x2048, .f32⟩ : BufTy).Contents (Elt F)),
    binary main_arg1 main_v4 main_v5 (subf : (⟨S2048x2048, .f32⟩ : BufTy).Contents (Elt F) → (⟨S2048x2048, .f32⟩ : BufTy).Contents (Elt F) → (⟨S2048x2048, .f32⟩ : BufTy).Contents (Elt F)),
    binary main_v5 main_v5 main_v6 (mulf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x00000000#32),
    binary main_v6 main_cst_1 main_v7 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_2 (constant S_ .f32 0x322BCC77#32),
    unary main_cst_2 main_v8 (broadcastInDim S2048 ![] bcast_S_S2048 : (⟨S_, .f32⟩ : BufTy).Contents (Elt F) → (⟨S2048, .f32⟩ : BufTy).Contents (Elt F)),
    binary main_v7 main_v8 main_v9 (addf : (⟨S2048, .f32⟩ : BufTy).Contents (Elt F) → (⟨S2048, .f32⟩ : BufTy).Contents (Elt F) → (⟨S2048, .f32⟩ : BufTy).Contents (Elt F)),
    unary main_v9 main_v10 (Host.sqrt : (⟨S2048, .f32⟩ : BufTy).Contents (Elt F) → (⟨S2048, .f32⟩ : BufTy).Contents (Elt F)),
    nullary main_v11 (iotaInDim S31 32 0),
    nullary main_c (constantI S_ 32 4294967281#32),
    unary main_c main_v12 (broadcastInDim S31 ![] bcast_S_S31 : (⟨S_, .i32⟩ : BufTy).Contents (Elt F) → (⟨S31, .i32⟩ : BufTy).Contents (Elt F)),
    binary main_v12 main_v11 main_v13 (addi : (⟨S31, .i32⟩ : BufTy).Contents (Elt F) → (⟨S31, .i32⟩ : BufTy).Contents (Elt F) → (⟨S31, .i32⟩ : BufTy).Contents (Elt F)),
    TRef.unary (TRef.of main_v13 : TRef sig ⟨S31, .i32⟩) main_call0.v0 (broadcastInDim S31x1 ![0] bcast_S31_S31x1_0),
    TRef.unary main_call0.v0 main_call0.v1 (extractStridedSlice S31x1 ![0, 0] · slices_S31x1_S31x1_0_0),
    TRef.reshape main_call0.v1 main_call0.v2 rfl shapeCasts_S31x1_S31,
    TRef.nullary main_call0.c (constantI S_ 32 2048#32),
    TRef.nullary main_call0.c_0 (constantI S_ 32 1#32),
    TRef.binary main_call0.c main_call0.c_0 main_call0.v3 maxsi,
    TRef.nullary main_call0.call0.c (constantI S_ 32 0#32),
    TRef.binary main_call0.v3 main_call0.call0.c main_call0.call0.v0 (cmpi .eq),
    TRef.nullary main_call0.call0.c_0 (constantI S_ 32 1#32),
    TRef.ternary main_call0.call0.v0 main_call0.call0.c_0 main_call0.v3 main_call0.call0.call0.v0 select,
    TRef.unary main_call0.call0.call0.v0 main_call0.call0.v2 (broadcastInDim S31 ![] bcast_S_S31),
    TRef.binary main_call0.v2 main_call0.call0.v2 main_call0.call0.v3 Host.remsi,
    TRef.nullary main_call0.call0.c_1 (constantI S_ 32 0#32),
    TRef.unary main_call0.call0.c_1 main_call0.call0.v4 (broadcastInDim S31 ![] bcast_S_S31),
    TRef.binary main_call0.call0.v3 main_call0.call0.v4 main_call0.call0.v5 (cmpi .ne),
    TRef.nullary main_call0.call0.c_2 (constantI S_ 32 0#32),
    TRef.unary main_call0.call0.c_2 main_call0.call0.v6 (broadcastInDim S31 ![] bcast_S_S31),
    TRef.binary main_call0.call0.v3 main_call0.call0.v6 main_call0.call0.v7 (cmpi .slt),
    TRef.nullary main_call0.call0.c_3 (constantI S_ 32 0#32),
    TRef.binary main_call0.call0.call0.v0 main_call0.call0.c_3 main_call0.call0.v8 (cmpi .slt),
    TRef.unary main_call0.call0.v8 main_call0.call0.v9 (broadcastInDim S31 ![] bcast_S_S31),
    TRef.binary main_call0.call0.v7 main_call0.call0.v9 main_call0.call0.v10 (cmpi .ne),
    TRef.binary main_call0.call0.v10 main_call0.call0.v5 main_call0.call0.v11 andi,
    TRef.unary main_call0.call0.call0.v0 main_call0.call0.v12 (broadcastInDim S31 ![] bcast_S_S31),
    TRef.binary main_call0.call0.v3 main_call0.call0.v12 main_call0.call0.v13 addi,
    TRef.ternary main_call0.call0.v11 main_call0.call0.v13 main_call0.call0.v3 main_call0.call0.v14 select,
    TRef.binary (TRef.of main_arg0 : TRef sig ⟨S2048x2048, .f32⟩) (TRef.of main_arg0 : TRef sig ⟨S2048x2048, .f32⟩) main_call0.v5 (fun a b => concatenate S2048x4096 1 [⟨S2048x2048, a⟩, ⟨S2048x2048, b⟩] concatenates_S2048x2048_S2048x2048_S2048x4096_d1),
    TRef.nullary main_call0.c_1 (constantI S_ 32 2048#32),
    TRef.unary main_call0.c_1 main_call0.v6 (broadcastInDim S31 ![] bcast_S_S31),
    TRef.binary main_call0.v6 main_call0.call0.v14 main_call0.v7 subi,
    TRef.nullary main_call0.c_2 (constantI S_ 32 0#32),
    TRef.unary main_call0.c_2 main_call0.v8 (broadcastInDim S31 ![] bcast_S_S31),
    TRef.binary main_call0.v7 main_call0.v8 main_call0.v9 (cmpi .slt),
    TRef.nullary main_call0.c_3 (constantI S_ 32 4096#32),
    TRef.unary main_call0.c_3 main_call0.v10 (broadcastInDim S31 ![] bcast_S_S31),
    TRef.binary main_call0.v7 main_call0.v10 main_call0.v11 addi,
    TRef.ternary main_call0.v9 main_call0.v11 main_call0.v7 main_call0.v12 select,
    TRef.nullary main_call0.c_4 (constantI S_ 32 0#32),
    TRef.unary main_call0.c_4 main_call0.v13 (broadcastInDim S31x1 ![] bcast_S_S31x1),
    TRef.unary main_call0.v12 main_call0.v14 (broadcastInDim S31x1 ![0] bcast_S31_S31x1_0),
    TRef.binary main_call0.v13 main_call0.v14 main_call0.v15 (fun a b => concatenate S31x2 1 [⟨S31x1, a⟩, ⟨S31x1, b⟩] concatenates_S31x1_S31x1_S31x2_d1),
    TRef.binary main_call0.v5 main_call0.v15 main_call0.v16 (fun x i => Host.gather gather_S2048x4096_S31x2_S31x2048x2048_12_n_n_n_01_1_20482048 x i),
    nullary main_cst_3 (constant S_ .f32 0x00000000#32),
    binary main_v14 main_cst_3 main_v15 ((fun x v => Host.reduceAdd x v reducesTo_S31x2048x2048_S31x2048_d2 h_S_) : (⟨S31x2048x2048, .f32⟩ : BufTy).Contents (Elt F) → (⟨S_, .f32⟩ : BufTy).Contents (Elt F) → (⟨S31x2048, .f32⟩ : BufTy).Contents (Elt F)),
    unary main_v15 main_v16 (broadcastInDim S31x2048x1 ![0, 1] bcast_S31x2048_S31x2048x1_0_1 : (⟨S31x2048, .f32⟩ : BufTy).Contents (Elt F) → (⟨S31x2048x1, .f32⟩ : BufTy).Contents (Elt F)),
    nullary main_cst_4 (constant S_ .f32 0x45000000#32),
    unary main_cst_4 main_v17 (broadcastInDim S31x2048x1 ![] bcast_S_S31x2048x1 : (⟨S_, .f32⟩ : BufTy).Contents (Elt F) → (⟨S31x2048x1, .f32⟩ : BufTy).Contents (Elt F)),
    binary main_v16 main_v17 main_v18 (Host.divf : (⟨S31x2048x1, .f32⟩ : BufTy).Contents (Elt F) → (⟨S31x2048x1, .f32⟩ : BufTy).Contents (Elt F) → (⟨S31x2048x1, .f32⟩ : BufTy).Contents (Elt F)),
    unary main_v18 main_v19 (broadcastInDim S31x2048x2048 ![0, 1, 2] bcast_S31x2048x1_S31x2048x2048_0_1_2 : (⟨S31x2048x1, .f32⟩ : BufTy).Contents (Elt F) → (⟨S31x2048x2048, .f32⟩ : BufTy).Contents (Elt F)),
    binary main_v14 main_v19 main_v20 (subf : (⟨S31x2048x2048, .f32⟩ : BufTy).Contents (Elt F) → (⟨S31x2048x2048, .f32⟩ : BufTy).Contents (Elt F) → (⟨S31x2048x2048, .f32⟩ : BufTy).Contents (Elt F)),
    binary main_v20 main_v20 main_v21 (mulf : (⟨S31x2048x2048, .f32⟩ : BufTy).Contents (Elt F) → (⟨S31x2048x2048, .f32⟩ : BufTy).Contents (Elt F) → (⟨S31x2048x2048, .f32⟩ : BufTy).Contents (Elt F)),
    nullary main_cst_5 (constant S_ .f32 0x00000000#32),
    binary main_v21 main_cst_5 main_v22 ((fun x v => Host.reduceAdd x v reducesTo_S31x2048x2048_S31x2048_d2 h_S_) : (⟨S31x2048x2048, .f32⟩ : BufTy).Contents (Elt F) → (⟨S_, .f32⟩ : BufTy).Contents (Elt F) → (⟨S31x2048, .f32⟩ : BufTy).Contents (Elt F)),
    nullary main_cst_6 (constant S_ .f32 0x322BCC77#32),
    unary main_cst_6 main_v23 (broadcastInDim S31x2048 ![] bcast_S_S31x2048 : (⟨S_, .f32⟩ : BufTy).Contents (Elt F) → (⟨S31x2048, .f32⟩ : BufTy).Contents (Elt F)),
    binary main_v22 main_v23 main_v24 (addf : (⟨S31x2048, .f32⟩ : BufTy).Contents (Elt F) → (⟨S31x2048, .f32⟩ : BufTy).Contents (Elt F) → (⟨S31x2048, .f32⟩ : BufTy).Contents (Elt F)),
    unary main_v24 main_v25 (Host.sqrt : (⟨S31x2048, .f32⟩ : BufTy).Contents (Elt F) → (⟨S31x2048, .f32⟩ : BufTy).Contents (Elt F)),
    unary main_v5 main_v26 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v26 main_v27 (broadcastInDim S31x2048x2048 ![0, 1, 2] bcast_S1x2048x2048_S31x2048x2048_0_1_2 : (⟨S1x2048x2048, .f32⟩ : BufTy).Contents (Elt F) → (⟨S31x2048x2048, .f32⟩ : BufTy).Contents (Elt F)),
    binary main_v20 main_v27 main_v28 (mulf : (⟨S31x2048x2048, .f32⟩ : BufTy).Contents (Elt F) → (⟨S31x2048x2048, .f32⟩ : BufTy).Contents (Elt F) → (⟨S31x2048x2048, .f32⟩ : BufTy).Contents (Elt F)),
    nullary main_cst_7 (constant S_ .f32 0x00000000#32),
    binary main_v28 main_cst_7 main_v29 ((fun x v => Host.reduceAdd x v reducesTo_S31x2048x2048_S31x2048_d2 h_S_) : (⟨S31x2048x2048, .f32⟩ : BufTy).Contents (Elt F) → (⟨S_, .f32⟩ : BufTy).Contents (Elt F) → (⟨S31x2048, .f32⟩ : BufTy).Contents (Elt F)),
    unary main_v10 main_v30 (broadcastInDim S1x2048 ![1] bcast_S2048_S1x2048_1 : (⟨S2048, .f32⟩ : BufTy).Contents (Elt F) → (⟨S1x2048, .f32⟩ : BufTy).Contents (Elt F)),
    unary main_v30 main_v31 (broadcastInDim S31x2048 ![0, 1] bcast_S1x2048_S31x2048_0_1 : (⟨S1x2048, .f32⟩ : BufTy).Contents (Elt F) → (⟨S31x2048, .f32⟩ : BufTy).Contents (Elt F)),
    binary main_v25 main_v31 main_v32 (mulf : (⟨S31x2048, .f32⟩ : BufTy).Contents (Elt F) → (⟨S31x2048, .f32⟩ : BufTy).Contents (Elt F) → (⟨S31x2048, .f32⟩ : BufTy).Contents (Elt F)),
    binary main_v29 main_v32 main_v33 (Host.divf : (⟨S31x2048, .f32⟩ : BufTy).Contents (Elt F) → (⟨S31x2048, .f32⟩ : BufTy).Contents (Elt F) → (⟨S31x2048, .f32⟩ : BufTy).Contents (Elt F)),
    nullary main_cst_8 (constant S_ .f32 0xFF800000#32),
    binary main_v33 main_cst_8 main_v34 ((fun x v => Host.reduce FloatOps.maximumf x v reducesTo_S31x2048_S2048_d0 h_S_) : (⟨S31x2048, .f32⟩ : BufTy).Contents (Elt F) → (⟨S_, .f32⟩ : BufTy).Contents (Elt F) → (⟨S2048, .f32⟩ : BufTy).Contents (Elt F)),
    nullary main_cst_9 (constant S_ .f32 0xBF800000#32),
    unary main_cst_9 main_v35 (broadcastInDim S2048 ![] bcast_S_S2048 : (⟨S_, .f32⟩ : BufTy).Contents (Elt F) → (⟨S2048, .f32⟩ : BufTy).Contents (Elt F)),
    binary main_v34 main_v35 main_v36 (maximumf : (⟨S2048, .f32⟩ : BufTy).Contents (Elt F) → (⟨S2048, .f32⟩ : BufTy).Contents (Elt F) → (⟨S2048, .f32⟩ : BufTy).Contents (Elt F)),
    nullary main_cst_10 (constant S_ .f32 0x00000000#32),
    binary main_v36 main_cst_10 main_v37 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_11 (constant S_ .f32 0x45000000#32),
    binary main_v37 main_cst_11 main_v38 (Host.divf : (⟨S_, .f32⟩ : BufTy).Contents (Elt F) → (⟨S_, .f32⟩ : BufTy).Contents (Elt F) → (⟨S_, .f32⟩ : BufTy).Contents (Elt F)),
    nullary main_cst_12 (constant S_ .f32 0x3F800000#32),
    binary main_cst_12 main_v38 main_v39 (subf : (⟨S_, .f32⟩ : BufTy).Contents (Elt F) → (⟨S_, .f32⟩ : BufTy).Contents (Elt F) → (⟨S_, .f32⟩ : BufTy).Contents (Elt F)) ]

set_option maxRecDepth 8192 in
/-- @main is that straight line: the three functions unfolded at their calls and the buffer records at their
    fields, both sides are one chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., nullary_bufs_sub ..,
    unary_bufs_sub .., binary_bufs_sub .., unary_bufs_sub .., nullary_bufs_sub .., nullary_bufs_sub .., unary_bufs_sub ..,
    binary_bufs_sub .., unary_bufs_sub .., unary_bufs_sub .., reshape_bufs_sub .., nullary_bufs_sub .., nullary_bufs_sub ..,
    binary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., unary_bufs_sub ..,
    binary_bufs_sub .., nullary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    nullary_bufs_sub .., binary_bufs_sub .., nullary_bufs_sub .., binary_bufs_sub .., nullary_bufs_sub .., binary_bufs_sub ..⟩

/-! ## The run, cut into consecutive parts

The list of operations is cut where a later part reads only a few buffers of the earlier ones: the targets'
statistics; the integer table's two columns and the doubled predictions; the table; the gather; the rest. Each
part's effect on the buffers the next parts read is stated on its own, over any contents before it, and the
parts are then chained. The reductions, the gather and the concatenations stay folded throughout: no step
looks inside them. -/

/-- The targets' part: each row's mean, the centred targets, their norms. -/
abbrev opsT : List (HloOp τ sig (Elt F)) :=
  [ nullary main_cst (constant S_ .f32 0x00000000#32),
    binary main_arg1 main_cst main_v0 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v0 main_v1 (broadcastInDim S2048x1 ![0] bcast_S2048_S2048x1_0 : (⟨S2048, .f32⟩ : BufTy).Contents (Elt F) → (⟨S2048x1, .f32⟩ : BufTy).Contents (Elt F)),
    nullary main_cst_0 (constant S_ .f32 0x45000000#32),
    unary main_cst_0 main_v2 (broadcastInDim S2048x1 ![] bcast_S_S2048x1 : (⟨S_, .f32⟩ : BufTy).Contents (Elt F) → (⟨S2048x1, .f32⟩ : BufTy).Contents (Elt F)),
    binary main_v1 main_v2 main_v3 (Host.divf : (⟨S2048x1, .f32⟩ : BufTy).Contents (Elt F) → (⟨S2048x1, .f32⟩ : BufTy).Contents (Elt F) → (⟨S2048x1, .f32⟩ : BufTy).Contents (Elt F)),
    unary main_v3 main_v4 (broadcastInDim S2048x2048 ![0, 1] bcast_S2048x1_S2048x2048_0_1 : (⟨S2048x1, .f32⟩ : BufTy).Contents (Elt F) → (⟨S2048x2048, .f32⟩ : BufTy).Contents (Elt F)),
    binary main_arg1 main_v4 main_v5 (subf : (⟨S2048x2048, .f32⟩ : BufTy).Contents (Elt F) → (⟨S2048x2048, .f32⟩ : BufTy).Contents (Elt F) → (⟨S2048x2048, .f32⟩ : BufTy).Contents (Elt F)),
    binary main_v5 main_v5 main_v6 (mulf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x00000000#32),
    binary main_v6 main_cst_1 main_v7 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_2 (constant S_ .f32 0x322BCC77#32),
    unary main_cst_2 main_v8 (broadcastInDim S2048 ![] bcast_S_S2048 : (⟨S_, .f32⟩ : BufTy).Contents (Elt F) → (⟨S2048, .f32⟩ : BufTy).Contents (Elt F)),
    binary main_v7 main_v8 main_v9 (addf : (⟨S2048, .f32⟩ : BufTy).Contents (Elt F) → (⟨S2048, .f32⟩ : BufTy).Contents (Elt F) → (⟨S2048, .f32⟩ : BufTy).Contents (Elt F)),
    unary main_v9 main_v10 (Host.sqrt : (⟨S2048, .f32⟩ : BufTy).Contents (Elt F) → (⟨S2048, .f32⟩ : BufTy).Contents (Elt F)) ]

/-- The start columns (integers only), up to the two columns of the table, and the predictions laid twice side by side. -/
abbrev opsI : List (HloOp τ sig (Elt F)) :=
  [ nullary main_v11 (iotaInDim S31 32 0),
    nullary main_c (constantI S_ 32 4294967281#32),
    unary main_c main_v12 (broadcastInDim S31 ![] bcast_S_S31 : (⟨S_, .i32⟩ : BufTy).Contents (Elt F) → (⟨S31, .i32⟩ : BufTy).Contents (Elt F)),
    binary main_v12 main_v11 main_v13 (addi : (⟨S31, .i32⟩ : BufTy).Contents (Elt F) → (⟨S31, .i32⟩ : BufTy).Contents (Elt F) → (⟨S31, .i32⟩ : BufTy).Contents (Elt F)),
    TRef.unary (TRef.of main_v13 : TRef sig ⟨S31, .i32⟩) main_call0.v0 (broadcastInDim S31x1 ![0] bcast_S31_S31x1_0),
    TRef.unary main_call0.v0 main_call0.v1 (extractStridedSlice S31x1 ![0, 0] · slices_S31x1_S31x1_0_0),
    TRef.reshape main_call0.v1 main_call0.v2 rfl shapeCasts_S31x1_S31,
    TRef.nullary main_call0.c (constantI S_ 32 2048#32),
    TRef.nullary main_call0.c_0 (constantI S_ 32 1#32),
    TRef.binary main_call0.c main_call0.c_0 main_call0.v3 maxsi,
    TRef.nullary main_call0.call0.c (constantI S_ 32 0#32),
    TRef.binary main_call0.v3 main_call0.call0.c main_call0.call0.v0 (cmpi .eq),
    TRef.nullary main_call0.call0.c_0 (constantI S_ 32 1#32),
    TRef.ternary main_call0.call0.v0 main_call0.call0.c_0 main_call0.v3 main_call0.call0.call0.v0 select,
    TRef.unary main_call0.call0.call0.v0 main_call0.call0.v2 (broadcastInDim S31 ![] bcast_S_S31),
    TRef.binary main_call0.v2 main_call0.call0.v2 main_call0.call0.v3 Host.remsi,
    TRef.nullary main_call0.call0.c_1 (constantI S_ 32 0#32),
    TRef.unary main_call0.call0.c_1 main_call0.call0.v4 (broadcastInDim S31 ![] bcast_S_S31),
    TRef.binary main_call0.call0.v3 main_call0.call0.v4 main_call0.call0.v5 (cmpi .ne),
    TRef.nullary main_call0.call0.c_2 (constantI S_ 32 0#32),
    TRef.unary main_call0.call0.c_2 main_call0.call0.v6 (broadcastInDim S31 ![] bcast_S_S31),
    TRef.binary main_call0.call0.v3 main_call0.call0.v6 main_call0.call0.v7 (cmpi .slt),
    TRef.nullary main_call0.call0.c_3 (constantI S_ 32 0#32),
    TRef.binary main_call0.call0.call0.v0 main_call0.call0.c_3 main_call0.call0.v8 (cmpi .slt),
    TRef.unary main_call0.call0.v8 main_call0.call0.v9 (broadcastInDim S31 ![] bcast_S_S31),
    TRef.binary main_call0.call0.v7 main_call0.call0.v9 main_call0.call0.v10 (cmpi .ne),
    TRef.binary main_call0.call0.v10 main_call0.call0.v5 main_call0.call0.v11 andi,
    TRef.unary main_call0.call0.call0.v0 main_call0.call0.v12 (broadcastInDim S31 ![] bcast_S_S31),
    TRef.binary main_call0.call0.v3 main_call0.call0.v12 main_call0.call0.v13 addi,
    TRef.ternary main_call0.call0.v11 main_call0.call0.v13 main_call0.call0.v3 main_call0.call0.v14 select,
    TRef.binary (TRef.of main_arg0 : TRef sig ⟨S2048x2048, .f32⟩) (TRef.of main_arg0 : TRef sig ⟨S2048x2048, .f32⟩) main_call0.v5 (fun a b => concatenate S2048x4096 1 [⟨S2048x2048, a⟩, ⟨S2048x2048, b⟩] concatenates_S2048x2048_S2048x2048_S2048x4096_d1),
    TRef.nullary main_call0.c_1 (constantI S_ 32 2048#32),
    TRef.unary main_call0.c_1 main_call0.v6 (broadcastInDim S31 ![] bcast_S_S31),
    TRef.binary main_call0.v6 main_call0.call0.v14 main_call0.v7 subi,
    TRef.nullary main_call0.c_2 (constantI S_ 32 0#32),
    TRef.unary main_call0.c_2 main_call0.v8 (broadcastInDim S31 ![] bcast_S_S31),
    TRef.binary main_call0.v7 main_call0.v8 main_call0.v9 (cmpi .slt),
    TRef.nullary main_call0.c_3 (constantI S_ 32 4096#32),
    TRef.unary main_call0.c_3 main_call0.v10 (broadcastInDim S31 ![] bcast_S_S31),
    TRef.binary main_call0.v7 main_call0.v10 main_call0.v11 addi,
    TRef.ternary main_call0.v9 main_call0.v11 main_call0.v7 main_call0.v12 select,
    TRef.nullary main_call0.c_4 (constantI S_ 32 0#32),
    TRef.unary main_call0.c_4 main_call0.v13 (broadcastInDim S31x1 ![] bcast_S_S31x1),
    TRef.unary main_call0.v12 main_call0.v14 (broadcastInDim S31x1 ![0] bcast_S31_S31x1_0) ]

/-- The table of start indices: the two columns side by side. -/
abbrev opsC : List (HloOp τ sig (Elt F)) :=
  [ TRef.binary main_call0.v13 main_call0.v14 main_call0.v15 (fun a b => concatenate S31x2 1 [⟨S31x1, a⟩, ⟨S31x1, b⟩] concatenates_S31x1_S31x1_S31x2_d1) ]

/-- The gather of the 31 windows. -/
abbrev opsG : List (HloOp τ sig (Elt F)) :=
  [ TRef.binary main_call0.v5 main_call0.v15 main_call0.v16 (fun x i => Host.gather gather_S2048x4096_S31x2_S31x2048x2048_12_n_n_n_01_1_20482048 x i) ]

/-- The rest: each rotated copy centred, its norm, its inner product with the centred targets, the quotients, their maximum, the mean. -/
abbrev opsF : List (HloOp τ sig (Elt F)) :=
  [ nullary main_cst_3 (constant S_ .f32 0x00000000#32),
    binary main_v14 main_cst_3 main_v15 ((fun x v => Host.reduceAdd x v reducesTo_S31x2048x2048_S31x2048_d2 h_S_) : (⟨S31x2048x2048, .f32⟩ : BufTy).Contents (Elt F) → (⟨S_, .f32⟩ : BufTy).Contents (Elt F) → (⟨S31x2048, .f32⟩ : BufTy).Contents (Elt F)),
    unary main_v15 main_v16 (broadcastInDim S31x2048x1 ![0, 1] bcast_S31x2048_S31x2048x1_0_1 : (⟨S31x2048, .f32⟩ : BufTy).Contents (Elt F) → (⟨S31x2048x1, .f32⟩ : BufTy).Contents (Elt F)),
    nullary main_cst_4 (constant S_ .f32 0x45000000#32),
    unary main_cst_4 main_v17 (broadcastInDim S31x2048x1 ![] bcast_S_S31x2048x1 : (⟨S_, .f32⟩ : BufTy).Contents (Elt F) → (⟨S31x2048x1, .f32⟩ : BufTy).Contents (Elt F)),
    binary main_v16 main_v17 main_v18 (Host.divf : (⟨S31x2048x1, .f32⟩ : BufTy).Contents (Elt F) → (⟨S31x2048x1, .f32⟩ : BufTy).Contents (Elt F) → (⟨S31x2048x1, .f32⟩ : BufTy).Contents (Elt F)),
    unary main_v18 main_v19 (broadcastInDim S31x2048x2048 ![0, 1, 2] bcast_S31x2048x1_S31x2048x2048_0_1_2 : (⟨S31x2048x1, .f32⟩ : BufTy).Contents (Elt F) → (⟨S31x2048x2048, .f32⟩ : BufTy).Contents (Elt F)),
    binary main_v14 main_v19 main_v20 (subf : (⟨S31x2048x2048, .f32⟩ : BufTy).Contents (Elt F) → (⟨S31x2048x2048, .f32⟩ : BufTy).Contents (Elt F) → (⟨S31x2048x2048, .f32⟩ : BufTy).Contents (Elt F)),
    binary main_v20 main_v20 main_v21 (mulf : (⟨S31x2048x2048, .f32⟩ : BufTy).Contents (Elt F) → (⟨S31x2048x2048, .f32⟩ : BufTy).Contents (Elt F) → (⟨S31x2048x2048, .f32⟩ : BufTy).Contents (Elt F)),
    nullary main_cst_5 (constant S_ .f32 0x00000000#32),
    binary main_v21 main_cst_5 main_v22 ((fun x v => Host.reduceAdd x v reducesTo_S31x2048x2048_S31x2048_d2 h_S_) : (⟨S31x2048x2048, .f32⟩ : BufTy).Contents (Elt F) → (⟨S_, .f32⟩ : BufTy).Contents (Elt F) → (⟨S31x2048, .f32⟩ : BufTy).Contents (Elt F)),
    nullary main_cst_6 (constant S_ .f32 0x322BCC77#32),
    unary main_cst_6 main_v23 (broadcastInDim S31x2048 ![] bcast_S_S31x2048 : (⟨S_, .f32⟩ : BufTy).Contents (Elt F) → (⟨S31x2048, .f32⟩ : BufTy).Contents (Elt F)),
    binary main_v22 main_v23 main_v24 (addf : (⟨S31x2048, .f32⟩ : BufTy).Contents (Elt F) → (⟨S31x2048, .f32⟩ : BufTy).Contents (Elt F) → (⟨S31x2048, .f32⟩ : BufTy).Contents (Elt F)),
    unary main_v24 main_v25 (Host.sqrt : (⟨S31x2048, .f32⟩ : BufTy).Contents (Elt F) → (⟨S31x2048, .f32⟩ : BufTy).Contents (Elt F)),
    unary main_v5 main_v26 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v26 main_v27 (broadcastInDim S31x2048x2048 ![0, 1, 2] bcast_S1x2048x2048_S31x2048x2048_0_1_2 : (⟨S1x2048x2048, .f32⟩ : BufTy).Contents (Elt F) → (⟨S31x2048x2048, .f32⟩ : BufTy).Contents (Elt F)),
    binary main_v20 main_v27 main_v28 (mulf : (⟨S31x2048x2048, .f32⟩ : BufTy).Contents (Elt F) → (⟨S31x2048x2048, .f32⟩ : BufTy).Contents (Elt F) → (⟨S31x2048x2048, .f32⟩ : BufTy).Contents (Elt F)),
    nullary main_cst_7 (constant S_ .f32 0x00000000#32),
    binary main_v28 main_cst_7 main_v29 ((fun x v => Host.reduceAdd x v reducesTo_S31x2048x2048_S31x2048_d2 h_S_) : (⟨S31x2048x2048, .f32⟩ : BufTy).Contents (Elt F) → (⟨S_, .f32⟩ : BufTy).Contents (Elt F) → (⟨S31x2048, .f32⟩ : BufTy).Contents (Elt F)),
    unary main_v10 main_v30 (broadcastInDim S1x2048 ![1] bcast_S2048_S1x2048_1 : (⟨S2048, .f32⟩ : BufTy).Contents (Elt F) → (⟨S1x2048, .f32⟩ : BufTy).Contents (Elt F)),
    unary main_v30 main_v31 (broadcastInDim S31x2048 ![0, 1] bcast_S1x2048_S31x2048_0_1 : (⟨S1x2048, .f32⟩ : BufTy).Contents (Elt F) → (⟨S31x2048, .f32⟩ : BufTy).Contents (Elt F)),
    binary main_v25 main_v31 main_v32 (mulf : (⟨S31x2048, .f32⟩ : BufTy).Contents (Elt F) → (⟨S31x2048, .f32⟩ : BufTy).Contents (Elt F) → (⟨S31x2048, .f32⟩ : BufTy).Contents (Elt F)),
    binary main_v29 main_v32 main_v33 (Host.divf : (⟨S31x2048, .f32⟩ : BufTy).Contents (Elt F) → (⟨S31x2048, .f32⟩ : BufTy).Contents (Elt F) → (⟨S31x2048, .f32⟩ : BufTy).Contents (Elt F)),
    nullary main_cst_8 (constant S_ .f32 0xFF800000#32),
    binary main_v33 main_cst_8 main_v34 ((fun x v => Host.reduce FloatOps.maximumf x v reducesTo_S31x2048_S2048_d0 h_S_) : (⟨S31x2048, .f32⟩ : BufTy).Contents (Elt F) → (⟨S_, .f32⟩ : BufTy).Contents (Elt F) → (⟨S2048, .f32⟩ : BufTy).Contents (Elt F)),
    nullary main_cst_9 (constant S_ .f32 0xBF800000#32),
    unary main_cst_9 main_v35 (broadcastInDim S2048 ![] bcast_S_S2048 : (⟨S_, .f32⟩ : BufTy).Contents (Elt F) → (⟨S2048, .f32⟩ : BufTy).Contents (Elt F)),
    binary main_v34 main_v35 main_v36 (maximumf : (⟨S2048, .f32⟩ : BufTy).Contents (Elt F) → (⟨S2048, .f32⟩ : BufTy).Contents (Elt F) → (⟨S2048, .f32⟩ : BufTy).Contents (Elt F)),
    nullary main_cst_10 (constant S_ .f32 0x00000000#32),
    binary main_v36 main_cst_10 main_v37 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_11 (constant S_ .f32 0x45000000#32),
    binary main_v37 main_cst_11 main_v38 (Host.divf : (⟨S_, .f32⟩ : BufTy).Contents (Elt F) → (⟨S_, .f32⟩ : BufTy).Contents (Elt F) → (⟨S_, .f32⟩ : BufTy).Contents (Elt F)),
    nullary main_cst_12 (constant S_ .f32 0x3F800000#32),
    binary main_cst_12 main_v38 main_v39 (subf : (⟨S_, .f32⟩ : BufTy).Contents (Elt F) → (⟨S_, .f32⟩ : BufTy).Contents (Elt F) → (⟨S_, .f32⟩ : BufTy).Contents (Elt F)) ]

/-- The operations are those five parts, in order. -/
theorem ops_split : (ops : List (HloOp τ sig (Elt F))) = opsT ++ (opsI ++ (opsC ++ (opsG ++ opsF))) := rfl

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### The targets' part -/

attribute [local irreducible] Host.reduce Host.reduceAdd Host.gather concatenate Host.remsi Host.divf Host.sqrt broadcastInDim in
/-- After the first part the centred targets are in place. -/
theorem T_v5 (V : Valuation τ sig (Elt F)) :
    after opsT V (main_v5 : DevRef τ sig) = Term.tcArr (V (main_arg1 : DevRef τ sig)) := by
  after_results
  rfl

attribute [local irreducible] Host.reduce Host.reduceAdd Host.gather concatenate Host.remsi Host.divf Host.sqrt broadcastInDim in
/-- And the norms of their rows. -/
theorem T_v10 (V : Valuation τ sig (Elt F)) :
    after opsT V (main_v10 : DevRef τ sig) = Term.stdT (V (main_arg1 : DevRef τ sig)) := by
  after_results
  rfl

/-- The first part leaves the predictions as they were. -/
theorem T_arg0 (V : Valuation τ sig (Elt F)) :
    after opsT V (main_arg0 : DevRef τ sig) = V (main_arg0 : DevRef τ sig) := by
  after_results_simp

/-! ### The start columns and the doubled predictions -/

set_option maxHeartbeats 1000000 in
attribute [local irreducible] Host.reduce Host.reduceAdd Host.gather concatenate Host.remsi Host.divf Host.sqrt broadcastInDim in
/-- The second column of the table: the start column of each rotated copy, as a column. -/
theorem I_v14 (W : Valuation τ sig (Elt F)) :
    after opsI W (main_call0_v14 : DevRef τ sig) = broadcastInDim S31x1 ![0] bcast_S31_S31x1_0 (Term.startCol (F := F)) := by
  after_results_simp
  rfl

attribute [local irreducible] Host.reduce Host.reduceAdd Host.gather concatenate Host.remsi Host.divf Host.sqrt broadcastInDim in
/-- The first column of the table: zeros. -/
theorem I_v13 (W : Valuation τ sig (Elt F)) :
    after opsI W (main_call0_v13 : DevRef τ sig) = broadcastInDim S31x1 ![] bcast_S_S31x1 (constantI S_ 32 0#32 : (⟨S_, .i32⟩ : BufTy).Contents (Elt F)) := by
  after_results_simp
  rfl

attribute [local irreducible] Host.reduce Host.reduceAdd Host.gather concatenate Host.remsi Host.divf Host.sqrt broadcastInDim in
/-- The predictions laid twice side by side. -/
theorem I_v5 (W : Valuation τ sig (Elt F)) :
    after opsI W (main_call0_v5 : DevRef τ sig) = concatenate S2048x4096 1 [⟨S2048x2048, W (main_arg0 : DevRef τ sig)⟩, ⟨S2048x2048, W (main_arg0 : DevRef τ sig)⟩] concatenates_S2048x2048_S2048x2048_S2048x4096_d1 := by
  after_results_simp
  rfl

/-- This part leaves the centred targets and their norms as they were. -/
theorem I_fv5 (W : Valuation τ sig (Elt F)) : after opsI W (main_v5 : DevRef τ sig) = W (main_v5 : DevRef τ sig) := by
  after_results_simp
theorem I_fv10 (W : Valuation τ sig (Elt F)) : after opsI W (main_v10 : DevRef τ sig) = W (main_v10 : DevRef τ sig) := by
  after_results_simp

/-! ### The table -/

attribute [local irreducible] Host.reduce Host.reduceAdd Host.gather concatenate Host.remsi Host.divf Host.sqrt broadcastInDim in
/-- The two columns side by side are the table of start indices. -/
theorem C_v15 (W : Valuation τ sig (Elt F))
    (h13 : W (main_call0_v13 : DevRef τ sig) = broadcastInDim S31x1 ![] bcast_S_S31x1 (constantI S_ 32 0#32 : (⟨S_, .i32⟩ : BufTy).Contents (Elt F)))
    (h14 : W (main_call0_v14 : DevRef τ sig) = broadcastInDim S31x1 ![0] bcast_S31_S31x1_0 (Term.startCol (F := F))) :
    after opsC W (main_call0_v15 : DevRef τ sig) = Term.starts := by
  after_results
  rw [h13, h14]
  rfl

theorem C_fc5 (W : Valuation τ sig (Elt F)) : after opsC W (main_call0_v5 : DevRef τ sig) = W (main_call0_v5 : DevRef τ sig) := by
  after_results_simp
theorem C_fv5 (W : Valuation τ sig (Elt F)) : after opsC W (main_v5 : DevRef τ sig) = W (main_v5 : DevRef τ sig) := by
  after_results_simp
theorem C_fv10 (W : Valuation τ sig (Elt F)) : after opsC W (main_v10 : DevRef τ sig) = W (main_v10 : DevRef τ sig) := by
  after_results_simp

/-! ### The gather -/

attribute [local irreducible] Host.reduce Host.reduceAdd Host.gather concatenate Host.remsi Host.divf Host.sqrt broadcastInDim in
/-- From the doubled predictions and the table, the 31 rotated copies. -/
theorem G_v14 (W : Valuation τ sig (Elt F)) (P : (⟨S2048x2048, .f32⟩ : BufTy).Contents (Elt F))
    (h5 : W (main_call0_v5 : DevRef τ sig) = concatenate S2048x4096 1 [⟨S2048x2048, P⟩, ⟨S2048x2048, P⟩] concatenates_S2048x2048_S2048x2048_S2048x4096_d1)
    (h15 : W (main_call0_v15 : DevRef τ sig) = Term.starts) :
    after opsG W (main_v14 : DevRef τ sig) = Term.gathered P := by
  after_results
  rw [h5, h15]
  rfl

theorem G_fv5 (W : Valuation τ sig (Elt F)) : after opsG W (main_v5 : DevRef τ sig) = W (main_v5 : DevRef τ sig) := by
  after_results_simp
theorem G_fv10 (W : Valuation τ sig (Elt F)) : after opsG W (main_v10 : DevRef τ sig) = W (main_v10 : DevRef τ sig) := by
  after_results_simp

/-! ### The rest -/

set_option maxHeartbeats 1000000 in
attribute [local irreducible] Host.reduce Host.reduceAdd Host.gather concatenate Host.remsi Host.divf Host.sqrt broadcastInDim in
/-- From the rotated copies, the centred targets and their norms, the result. -/
theorem F_out (W : Valuation τ sig (Elt F)) (P T : (⟨S2048x2048, .f32⟩ : BufTy).Contents (Elt F))
    (hG : W (main_v14 : DevRef τ sig) = Term.gathered P) (h5 : W (main_v5 : DevRef τ sig) = Term.tcArr T)
    (h10 : W (main_v10 : DevRef τ sig) = Term.stdT T) :
    after opsF W (main_v39 : DevRef τ sig) = Term.out P T := by
  after_results_simp
  rw [hG, h5, h10]
  rfl

/-! ### The parts chained -/

/-- The result buffer after all the operations: the one term of the two arguments. -/
theorem out_eq (V : Valuation τ sig (Elt F)) :
    after ops V (main_v39 : DevRef τ sig) = Term.out (V (main_arg0 : DevRef τ sig)) (V (main_arg1 : DevRef τ sig)) := by
  rw [ops_split]
  simp only [after_append]
  refine F_out _ _ _ ?_ ?_ ?_
  · exact G_v14 _ _ (by rw [C_fc5, I_v5, T_arg0]) (C_v15 _ (I_v13 _) (I_v14 _))
  · rw [G_fv5, C_fv5, I_fv5, T_v5]
  · rw [G_fv10, C_fv10, I_fv10, T_v10]

/-- No operation writes the first argument. -/
theorem arg0_eq (V : Valuation τ sig (Elt F)) :
    after ops V (main_arg0 : DevRef τ sig) = V (main_arg0 : DevRef τ sig) := by
  after_results_simp

/-- Nor the second. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at the one term of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Term.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v39).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefInt.lean ====
/-
  The table of start columns, evaluated: for the shift s - 15 the start column is 2048 minus the
  shift's residue modulo 2048, and the start row is 0.
-/
import proofs.«418355_j68856915689812_3_alg».proof.Proof.RefTerm
import proofs.«418355_j68856915689812_3_alg».proof.Proof.Gen.ReferenceIdeal
import proofs.«418355_j68856915689812_3_alg».proof.Proof.Spec
import Idealize.ShloMosaic.Lib.ValueIdx

noncomputable section

namespace Cert.ReferenceIdeal.RefInt

open Cert.ReferenceIdeal Idealize.ShloMosaic Idealize.ShloMosaic.ValueIdx

/-- The start column of rotated copy `s`. -/
theorem startCol_apply (s : Fin 31) :
    Term.startCol (F := Ideal) (ix1 s) = BitVec.ofNat 32 (2048 - Pearson.amt s) := by
  -- For each of the 31 shifts both sides are closed 32-bit words: the shift s - 15 has truncated
  -- remainder s - 15 by 2048, which is lifted by 2048 exactly when it is negative, giving the
  -- floored residue (s + 2033) mod 2048; 2048 minus that lies in 1, …, 2048 and is never negative.
  fin_cases s <;> rfl

/-- The table's first column is the start row, 0. -/
theorem starts_apply0 (s : Fin 31) : Term.starts (F := Ideal) (ix2 s (0 : Fin 2)) = 0#32 := by
  -- Column 0 of the two-column table falls in the first piece, the constant 0.
  fin_cases s <;> rfl

/-- The table's second column is the start column. -/
theorem starts_apply1 (s : Fin 31) :
    Term.starts (F := Ideal) (ix2 s (1 : Fin 2)) = BitVec.ofNat 32 (2048 - Pearson.amt s) := by
  -- Column 1 falls in the second piece, at its only column: the start column of copy `s`.
  fin_cases s <;> rfl

end Cert.ReferenceIdeal.RefInt

end
-- ==== Proof.RefGather.lean ====
/-
  The gathered array read at an index: copy s, row r, column j is the predictions' row r at the
  column j rotated by the s-th amount.

  The gather reads its operand, the predictions laid twice side by side (2048 rows, 4096 columns),
  at the operand index: on each operand axis the start index's component, read signed and clamped so
  that the window of 2048 fits, plus the result's coordinate on the matching window axis.  On the row
  axis the start is 0 (clamped into [0, 0]) and the window coordinate is r.  On the column axis the
  start is 2048 minus the amount, which lies in [0, 2048] and is left alone by the clamp, and the
  window coordinate is j.  So the operand index is (r, 2048 - amount + j), a column below 4096, and
  the doubled array at column c reads the predictions at column c mod 2048.  With the amount below
  2048, (2048 - amount + j) mod 2048 = (j + 2048 - amount mod 2048) mod 2048, the rotated column.
-/
import proofs.«418355_j68856915689812_3_alg».proof.Proof.RefInt
import Idealize.ShloMosaic.Lib.Pipeline.Value

noncomputable section

namespace Cert.ReferenceIdeal.RefGather

open Cert.ReferenceIdeal Idealize.ShloMosaic Idealize.ShloMosaic.ValueIdx

/-- A 32-bit word holding a natural below 2^31 reads back, as a signed integer, as that natural. -/
private theorem toInt_toNat_small (k : Nat) (hk : k < 2 ^ 31) : (BitVec.ofNat 32 k).toInt.toNat = k := by
  rw [BitVec.toInt_eq_toNat_cond, BitVec.toNat_ofNat, Nat.mod_eq_of_lt (by omega)]
  rw [if_pos (by omega)]
  simp

/-- The gather's dimension numbers: window axes 1 and 2 of the result, nothing collapsed, no batching
    axes, start components for operand axes 0 and 1 along axis 1 of the table, windows of 2048 × 2048. -/
abbrev gatherDims := gather_S2048x4096_S31x2_S31x2048x2048_12_n_n_n_01_1_20482048

/-- Every rotation amount is a residue modulo 2048. -/
private theorem amt_lt (s : Fin 31) : Pearson.amt s < 2048 := Nat.mod_lt _ (by decide)

/-- The start on the row axis: the table's first column, 0, clamped into [0, 2048 - 2048]. -/
private theorem start0 (s : Fin 31) (r j : Fin 2048) :
    gatherDims.start (ix3 s r j) (Term.starts (F := Ideal)) 0 = 0 := by
  unfold GatherDims.start
  rw [dif_pos (show (0 : Fin 2) ∈ gatherDims.startIndexMap from by decide)]
  have hsi : gatherDims.siIdx (ix3 s r j) ⟨List.idxOf (0 : Fin 2) gatherDims.startIndexMap,
      List.idxOf_lt_length_iff.2 (by decide)⟩ = ix2 s (0 : Fin 2) := by
    funext b; refine Fin.ext ?_
    match b with
    | ⟨0, _⟩ => rfl
    | ⟨1, _⟩ => rfl
  rw [hsi, RefInt.starts_apply0]
  simp

/-- The start on the column axis: the table's second column, 2048 minus the amount, which the clamp
    into [0, 4096 - 2048] leaves alone. -/
private theorem start1 (s : Fin 31) (r j : Fin 2048) :
    gatherDims.start (ix3 s r j) (Term.starts (F := Ideal)) 1 = 2048 - Pearson.amt s := by
  unfold GatherDims.start
  rw [dif_pos (show (1 : Fin 2) ∈ gatherDims.startIndexMap from by decide)]
  have hsi : gatherDims.siIdx (ix3 s r j) ⟨List.idxOf (1 : Fin 2) gatherDims.startIndexMap,
      List.idxOf_lt_length_iff.2 (by decide)⟩ = ix2 s (1 : Fin 2) := by
    funext b; refine Fin.ext ?_
    match b with
    | ⟨0, _⟩ => rfl
    | ⟨1, _⟩ => rfl
  rw [hsi, RefInt.starts_apply1, toInt_toNat_small _ (by omega)]
  show min (2048 - Pearson.amt s) (4096 - 2048) = _
  omega

/-- The operand index of result index (s, r, j): row r, column 2048 minus the amount plus j. -/
theorem operandIdx_eq (s : Fin 31) (r j : Fin 2048) :
    gatherDims.operandIdx (ix3 s r j) (Term.starts (F := Ideal))
      = ix2 r (⟨2048 - Pearson.amt s + j.val, by have := j.isLt; omega⟩ : Fin 4096) := by
  funext a
  refine Fin.ext ?_
  match a with
  | ⟨0, _⟩ =>
    show gatherDims.start (ix3 s r j) (Term.starts (F := Ideal)) 0 + gatherDims.batchCoord (ix3 s r j) 0
      + gatherDims.offCoord (ix3 s r j) 0 = r.val
    rw [GatherDims.batchCoord_eq_zero _ _ _ List.not_mem_nil, start0]
    show 0 + 0 + r.val = r.val
    omega
  | ⟨1, _⟩ =>
    show gatherDims.start (ix3 s r j) (Term.starts (F := Ideal)) 1 + gatherDims.batchCoord (ix3 s r j) 1
      + gatherDims.offCoord (ix3 s r j) 1 = 2048 - Pearson.amt s + j.val
    rw [GatherDims.batchCoord_eq_zero _ _ _ List.not_mem_nil, start1]
    show 2048 - Pearson.amt s + 0 + j.val = _
    omega

/-- An array laid twice side by side, at row r and a column c below 4096, is the array at row r and
    column c mod 2048: the first copy below 2048, the second (2048 less) from 2048 on. -/
theorem doubled_apply {α : Type} (P : S2048x2048.Idx → α) (r : Fin 2048) (c : Fin 4096) :
    concatenate S2048x4096 1 [⟨S2048x2048, P⟩, ⟨S2048x2048, P⟩]
        Facts₀.concatenates_S2048x2048_S2048x2048_S2048x4096_d1 (ix2 r c)
      = P (ix2 r (⟨c.val % 2048, Nat.mod_lt _ (by decide)⟩ : Fin 2048)) := by
  by_cases hc : c.val < 2048
  · refine concatenate_pair_apply_left 1 P P _ (ix2 r c) rfl _ ?_
    intro b
    match b with
    | ⟨0, _⟩ => rfl
    | ⟨1, _⟩ => show c.val % 2048 = c.val; omega
  · refine concatenate_pair_apply_right 1 P P _ (ix2 r c) rfl rfl _ ?_ ?_
    · intro b hb
      match b with
      | ⟨0, _⟩ => rfl
      | ⟨1, _⟩ => exact absurd rfl hb
    · show c.val % 2048 + 2048 = c.val
      have := c.isLt
      omega

/-- Rotated copy `s` of the predictions, at row `r` and column `j`. -/
theorem gathered_apply (P : FVec Ideal S2048x2048 .f32) (s : Fin 31) (r j : Fin 2048) :
    Term.gathered (F := Ideal) P (ix3 s r j) = P (ix2 r (Pearson.rot (Pearson.amt s) j)) := by
  unfold Term.gathered Host.gather
  rw [operandIdx_eq, doubled_apply]
  congr 2
  refine Fin.ext ?_
  show (2048 - Pearson.amt s + j.val) % 2048 = (j.val + 2048 - Pearson.amt s % 2048) % 2048
  have := amt_lt s
  have := j.isLt
  omega

end Cert.ReferenceIdeal.RefGather

end
-- ==== Proof.RefRead.lean ====
/-
  The reference program's result read at the extended reals, stage by stage from the inside out,
  each stage at an index with explicit coordinates: the targets minus their row means and the
  norms of those rows; each of the 31 rotated copies of the predictions minus its row means, and
  the norms of those rows; the inner product of each centred rotated row with the centred target
  row; the 31 quotients of an inner product by the product of the two norms; their maximum per
  row from -∞, clamped below at -1; and one minus the sum of that over the 2048 rows divided by
  2048.  A sum over one axis from the zero literal is the sum over that axis's coordinate; a
  value spread along an axis is read at the coordinates it came from; the rotated copy `s` at
  row `r` is row `r` of the predictions rotated by the `s`-th amount.
-/
import proofs.«418355_j68856915689812_3_alg».proof.Proof.RefGather
import Idealize.ShloMosaic.PureOps.Ideal.Laws
import Idealize.ShloMosaic.Lib.ValueIdx

noncomputable section

open scoped BigOperators

namespace Cert.ReferenceIdeal.RefRead

open Cert.ReferenceIdeal Idealize.ShloMosaic Idealize.ShloMosaic.ValueIdx
open Facts₀ Facts

/-! ## Pointwise host operations at an index -/

theorem hostDivf_apply {s : Shape} {φ : FTy} (a b : FVec Ideal s φ) (i : s.Idx) :
    Host.divf a b i = Ideal.div (a i) (b i) := rfl

theorem hostSqrt_apply {s : Shape} {φ : FTy} (a : FVec Ideal s φ) (i : s.Idx) :
    Host.sqrt a i = Ideal.sqrt (a i) := rfl

/-- A literal spread from rank 0 over any shape is that literal at every index. -/
theorem bcConst_apply {t : Shape} (dims : Fin S_.rank → Fin t.rank) (h : S_.BroadcastsInDim t dims) (b : BitVec 32) (i : t.Idx) :
    broadcastInDim t dims h (constant (F := Ideal) S_ .f32 b) i = Ideal.ofBits .f32 b := rfl

/-! ## The spreads along axes, read at an index with explicit coordinates -/

/-- [2048] as a column [2048, 1]. -/
theorem bc_S2048_col (h : S2048.BroadcastsInDim S2048x1 (![0] : Fin 1 → Fin S2048x1.rank)) (x : FVec Ideal S2048 .f32)
    (r : Fin 2048) (c : Fin 1) : broadcastInDim S2048x1 ![0] h x (ix2 r c) = x (ix1 r) := by
  unfold broadcastInDim
  congr 1; funext a
  match a with
  | ⟨0, _⟩ => rfl

/-- The column [2048, 1] spread over the 2048 columns. -/
theorem bc_col_S2048x2048 (h : S2048x1.BroadcastsInDim S2048x2048 (![0, 1] : Fin 2 → Fin S2048x2048.rank)) (x : FVec Ideal S2048x1 .f32)
    (r j : Fin 2048) : broadcastInDim S2048x2048 ![0, 1] h x (ix2 r j) = x (ix2 r 0) := by
  unfold broadcastInDim
  congr 1; funext a
  match a with
  | ⟨0, _⟩ => rfl
  | ⟨1, _⟩ => rfl

/-- [31, 2048] as [31, 2048, 1]. -/
theorem bc_S31x2048_col (h : S31x2048.BroadcastsInDim S31x2048x1 (![0, 1] : Fin 2 → Fin S31x2048x1.rank)) (x : FVec Ideal S31x2048 .f32)
    (s : Fin 31) (r : Fin 2048) (c : Fin 1) : broadcastInDim S31x2048x1 ![0, 1] h x (ix3 s r c) = x (ix2 s r) := by
  unfold broadcastInDim
  congr 1; funext a
  match a with
  | ⟨0, _⟩ => rfl
  | ⟨1, _⟩ => rfl

/-- [31, 2048, 1] spread over the 2048 columns. -/
theorem bc_col_S31x2048x2048 (h : S31x2048x1.BroadcastsInDim S31x2048x2048 (![0, 1, 2] : Fin 3 → Fin S31x2048x2048.rank))
    (x : FVec Ideal S31x2048x1 .f32) (s : Fin 31) (r j : Fin 2048) :
    broadcastInDim S31x2048x2048 ![0, 1, 2] h x (ix3 s r j) = x (ix3 s r 0) := by
  unfold broadcastInDim
  congr 1; funext a
  match a with
  | ⟨0, _⟩ => rfl
  | ⟨1, _⟩ => rfl
  | ⟨2, _⟩ => rfl

/-- [2048, 2048] as [1, 2048, 2048]. -/
theorem bc_S2048x2048_lead (h : S2048x2048.BroadcastsInDim S1x2048x2048 (![1, 2] : Fin 2 → Fin S1x2048x2048.rank))
    (x : FVec Ideal S2048x2048 .f32) (z : Fin 1) (r j : Fin 2048) :
    broadcastInDim S1x2048x2048 ![1, 2] h x (ix3 z r j) = x (ix2 r j) := by
  unfold broadcastInDim
  congr 1; funext a
  match a with
  | ⟨0, _⟩ => rfl
  | ⟨1, _⟩ => rfl

/-- [1, 2048, 2048] spread over the 31 copies. -/
theorem bc_lead_S31x2048x2048 (h : S1x2048x2048.BroadcastsInDim S31x2048x2048 (![0, 1, 2] : Fin 3 → Fin S31x2048x2048.rank))
    (x : FVec Ideal S1x2048x2048 .f32) (s : Fin 31) (r j : Fin 2048) :
    broadcastInDim S31x2048x2048 ![0, 1, 2] h x (ix3 s r j) = x (ix3 0 r j) := by
  unfold broadcastInDim
  congr 1; funext a
  match a with
  | ⟨0, _⟩ => rfl
  | ⟨1, _⟩ => rfl
  | ⟨2, _⟩ => rfl

/-- [2048] as [1, 2048]. -/
theorem bc_S2048_lead (h : S2048.BroadcastsInDim S1x2048 (![1] : Fin 1 → Fin S1x2048.rank))
    (x : FVec Ideal S2048 .f32) (z : Fin 1) (r : Fin 2048) :
    broadcastInDim S1x2048 ![1] h x (ix2 z r) = x (ix1 r) := by
  unfold broadcastInDim
  congr 1; funext a
  match a with
  | ⟨0, _⟩ => rfl

/-- [1, 2048] spread over the 31 copies. -/
theorem bc_lead_S31x2048 (h : S1x2048.BroadcastsInDim S31x2048 (![0, 1] : Fin 2 → Fin S31x2048.rank))
    (x : FVec Ideal S1x2048 .f32) (s : Fin 31) (r : Fin 2048) :
    broadcastInDim S31x2048 ![0, 1] h x (ix2 s r) = x (ix2 0 r) := by
  unfold broadcastInDim
  congr 1; funext a
  match a with
  | ⟨0, _⟩ => rfl
  | ⟨1, _⟩ => rfl

/-! ## The sums and the maximum over one axis, read at an index with explicit coordinates -/

/-- The sum over the columns of a 2048 × 2048 array from the zero literal, at row `r`. -/
theorem rowSum2 (h' : S2048x2048.ReducesTo [1] S2048) (hu : 0 < S_.numel) (X : FVec Ideal S2048x2048 .f32) (r : Fin 2048) :
    Host.reduceAdd (F := Ideal) X (constant (F := Ideal) S_ .f32 0x00000000#32) h' hu (ix1 r)
      = ∑ j : Fin 2048, X (ix2 r j) := by
  have h : S2048x2048.Reduces [1] S2048 := by decide
  show Ideal.hostReduceAdd h' X (Ideal.ofBits .f32 0x00000000#32) (ix1 r) = _
  rw [Ideal.hostReduceAdd_single _ h, Ideal.ofBits_zero_f32, zero_add]
  show ∑ k : Fin 2048, X (h.lift (ix1 r) k) = _
  refine Finset.sum_congr rfl fun k _ => ?_
  congr 1
  funext c
  match c with
  | ⟨0, _⟩ => rfl
  | ⟨1, _⟩ => rfl

/-- The sum over the columns of a 31 × 2048 × 2048 array from the zero literal, at copy `s` and row `r`. -/
theorem rowSum3 (h' : S31x2048x2048.ReducesTo [2] S31x2048) (hu : 0 < S_.numel) (X : FVec Ideal S31x2048x2048 .f32)
    (s : Fin 31) (r : Fin 2048) :
    Host.reduceAdd (F := Ideal) X (constant (F := Ideal) S_ .f32 0x00000000#32) h' hu (ix2 s r)
      = ∑ j : Fin 2048, X (ix3 s r j) := by
  have h : S31x2048x2048.Reduces [2] S31x2048 := by decide
  show Ideal.hostReduceAdd h' X (Ideal.ofBits .f32 0x00000000#32) (ix2 s r) = _
  rw [Ideal.hostReduceAdd_single _ h, Ideal.ofBits_zero_f32, zero_add]
  show ∑ k : Fin 2048, X (h.lift (ix2 s r) k) = _
  refine Finset.sum_congr rfl fun k _ => ?_
  congr 1
  funext c
  match c with
  | ⟨0, _⟩ => rfl
  | ⟨1, _⟩ => rfl
  | ⟨2, _⟩ => rfl

/-- A vector's index set is its coordinate range. -/
def vecIdx : S2048.Idx ≃ Fin 2048 where
  toFun i := i 0
  invFun := ix1
  left_inv i := (eq_ix1 i).symm
  right_inv _ := rfl

/-- The sum over the 2048 entries of a vector from the zero literal. -/
theorem totalSum (h' : S2048.ReducesTo [0] S_) (hu : 0 < S_.numel) (X : FVec Ideal S2048 .f32) (i : S_.Idx) :
    Host.reduceAdd (F := Ideal) X (constant (F := Ideal) S_ .f32 0x00000000#32) h' hu i
      = ∑ r : Fin 2048, X (ix1 r) := by
  show Ideal.hostReduceAdd h' X (Ideal.ofBits .f32 0x00000000#32) i = _
  rw [Ideal.hostReduceAdd_total h' (fun b => b.elim0), Ideal.ofBits_zero_f32, zero_add]
  exact Fintype.sum_equiv vecIdx _ _ (fun k => congrArg X (eq_ix1 k))

/-- The maximum over the 31 copies of a 31 × 2048 array from the literal -∞, at row `r`. -/
theorem copyMax (h' : S31x2048.ReducesTo [0] S2048) (hu : 0 < S_.numel) (X : FVec Ideal S31x2048 .f32) (r : Fin 2048) :
    Host.reduce (FloatOps.maximumf (F := Ideal) (φ := .f32)) X (constant (F := Ideal) S_ .f32 0xFF800000#32) h' hu (ix1 r)
      = (Finset.univ : Finset (Fin 31)).fold max Pearson.cNegInf (fun s => X (ix2 s r)) := by
  have h : S31x2048.Reduces [0] S2048 := by decide
  rw [Host.reduce_eq_fold_single _ _ _ h' h hu]
  have e : (X ∘ h.lift (ix1 r)) = fun s : Fin 31 => X (ix2 s r) := by
    funext k
    show X (h.lift (ix1 r) k) = X (ix2 k r)
    congr 1
    funext c
    match c with
    | ⟨0, _⟩ => rfl
    | ⟨1, _⟩ => rfl
  rw [e]
  rfl

/-! ## The stages, from the inside out -/

/-- The centred targets. -/
theorem tcArr_apply (T : FVec Ideal S2048x2048 .f32) (r j : Fin 2048) :
    Term.tcArr (F := Ideal) T (ix2 r j) = Pearson.ctr (Pearson.rows T r) j := by
  unfold Term.tcArr
  rw [subf_apply, bc_col_S2048x2048, hostDivf_apply, bc_S2048_col, bcConst_apply, rowSum2]
  rfl

/-- The centred targets' norms. -/
theorem stdT_apply (T : FVec Ideal S2048x2048 .f32) (r : Fin 2048) :
    Term.stdT (F := Ideal) T (ix1 r) = Pearson.nrm (Pearson.rows T r) := by
  unfold Term.stdT
  rw [hostSqrt_apply, addf_apply, bcConst_apply, rowSum2]
  simp only [mulf_apply, tcArr_apply]
  rfl

/-- A rotated copy's row is the rotated row. -/
theorem gathered_row (P : FVec Ideal S2048x2048 .f32) (s : Fin 31) (r j : Fin 2048) :
    Term.gathered (F := Ideal) P (ix3 s r j) = Pearson.rolled (Pearson.rows P r) s j :=
  RefGather.gathered_apply P s r j

/-- The centred rotated copies. -/
theorem pcArr_apply (P : FVec Ideal S2048x2048 .f32) (s : Fin 31) (r j : Fin 2048) :
    Term.pcArr (F := Ideal) P (ix3 s r j) = Pearson.ctr (Pearson.rolled (Pearson.rows P r) s) j := by
  unfold Term.pcArr
  rw [subf_apply, bc_col_S31x2048x2048, hostDivf_apply, bc_S31x2048_col, bcConst_apply, rowSum3]
  simp only [gathered_row]
  rfl

/-- The centred rotated copies' norms. -/
theorem stdP_apply (P : FVec Ideal S2048x2048 .f32) (s : Fin 31) (r : Fin 2048) :
    Term.stdP (F := Ideal) P (ix2 s r) = Pearson.nrm (Pearson.rolled (Pearson.rows P r) s) := by
  unfold Term.stdP
  rw [hostSqrt_apply, addf_apply, bcConst_apply, rowSum3]
  simp only [mulf_apply, pcArr_apply]
  rfl

/-- The inner products. -/
theorem covArr_apply (P T : FVec Ideal S2048x2048 .f32) (s : Fin 31) (r : Fin 2048) :
    Term.covArr (F := Ideal) P T (ix2 s r)
      = ∑ j : Fin 2048, Pearson.ctr (Pearson.rolled (Pearson.rows P r) s) j * Pearson.ctr (Pearson.rows T r) j := by
  unfold Term.covArr
  rw [rowSum3]
  refine Finset.sum_congr rfl fun j _ => ?_
  rw [mulf_apply, pcArr_apply, bc_lead_S31x2048x2048, bc_S2048x2048_lead, tcArr_apply]

/-- The quotients. -/
theorem pearson_apply (P T : FVec Ideal S2048x2048 .f32) (s : Fin 31) (r : Fin 2048) :
    Term.pearson (F := Ideal) P T (ix2 s r)
      = Ideal.div (∑ j : Fin 2048, Pearson.ctr (Pearson.rolled (Pearson.rows P r) s) j * Pearson.ctr (Pearson.rows T r) j)
          (Pearson.nrm (Pearson.rolled (Pearson.rows P r) s) * Pearson.nrm (Pearson.rows T r)) := by
  unfold Term.pearson
  rw [hostDivf_apply, mulf_apply, covArr_apply, stdP_apply, bc_lead_S31x2048, bc_S2048_lead, stdT_apply]

/-- The largest quotient per row, clamped below at -1. -/
theorem best_apply (P T : FVec Ideal S2048x2048 .f32) (r : Fin 2048) :
    Term.best (F := Ideal) P T (ix1 r) = Pearson.rRow (Pearson.rows P r) (Pearson.rows T r) := by
  unfold Term.best
  rw [maximumf_apply, bcConst_apply, copyMax]
  simp only [pearson_apply]
  rfl

/-- The program's result is the specification. -/
theorem out_eq (P T : FVec Ideal S2048x2048 .f32) :
    Term.out (F := Ideal) P T = fun _ => Pearson.loss Pearson.rRow (Pearson.rows P) (Pearson.rows T) := by
  funext i
  unfold Term.out
  rw [subf_apply, hostDivf_apply, totalSum]
  simp only [best_apply]
  rfl

end Cert.ReferenceIdeal.RefRead

end
-- ==== Proof.LibIdealReal.lean ====
/-
  Finiteness of the extended reals a graph convolution computes.

  At the ideal float values every float is an extended real.  `IsReal x` says `x` is
  the image of a real number; the lemmas below show that the operations the network uses
  (sum, product, difference, maximum, division by a positive real, the reciprocal square
  root of a positive real, the exponential, `exp - 1`, a selection between two reals, a
  change of format) carry reals to reals, so that distributivity, which fails at the
  infinities, is available along the whole computation.
-/
import Idealize.ShloMosaic.PureOps.Ideal
import Idealize.ShloMosaic.PureOps.Ideal.Laws

namespace IdealReal

open Idealize.ShloMosaic
open scoped BigOperators

/-- An extended real that is a real number. -/
def IsReal (x : EReal) : Prop := ∃ r : ℝ, x = r

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem isReal_coe (r : ℝ) : IsReal (r : EReal) := ⟨r, rfl⟩

theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

/-- A real is its own `toReal`. -/
theorem IsReal.coe_toReal {x : EReal} (h : IsReal x) : ((x.toReal : ℝ) : EReal) = x := by
  obtain ⟨r, rfl⟩ := h
  rw [EReal.toReal_coe]

theorem isReal_zero : IsReal 0 := ⟨0, rfl⟩
theorem isReal_one : IsReal 1 := ⟨1, rfl⟩

/-! ## The arithmetic of `EReal` -/

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {x y : EReal} (p : Prop) [Decidable p] (hx : IsReal x) (hy : IsReal y) :
    IsReal (if p then x else y) := by
  split_ifs <;> assumption

/-- A finite sum of reals is a real. -/
theorem IsReal.sum {ι : Type*} (s : Finset ι) (f : ι → EReal) (hf : ∀ i ∈ s, IsReal (f i)) :
    IsReal (∑ i ∈ s, f i) := by
  refine ⟨∑ i ∈ s, (f i).toReal, ?_⟩
  rw [coe_finset_sum]
  exact Finset.sum_congr rfl fun i hi => ((hf i hi).coe_toReal).symm

/-- A finite sum of products of reals is a real. -/
theorem IsReal.sum_mul {ι : Type*} (s : Finset ι) (f g : ι → EReal) (hf : ∀ i ∈ s, IsReal (f i))
    (hg : ∀ i ∈ s, IsReal (g i)) : IsReal (∑ i ∈ s, f i * g i) := by
  exact IsReal.sum s _ fun i hi => (hf i hi).mul (hg i hi)

/-- A count, a finite sum of ones, is the cardinality as a real. -/
theorem sum_one_eq_card {ι : Type*} (s : Finset ι) : (∑ _i ∈ s, (1 : EReal)) = ((s.card : ℝ) : EReal) := by
  have h := coe_finset_sum s (fun _ => (1 : ℝ))
  rw [Finset.sum_const, nsmul_eq_mul, mul_one] at h
  rw [h]
  exact Finset.sum_congr rfl fun _ _ => EReal.coe_one.symm

/-- An initial real plus a count is a real at least the initial value. -/
theorem add_sum_one_eq {ι : Type*} (s : Finset ι) (c : ℝ) :
    (c : EReal) + ∑ _i ∈ s, (1 : EReal) = ((c + s.card : ℝ) : EReal) := by
  rw [sum_one_eq_card, ← EReal.coe_add]

/-! ## The fields of the ideal instance, at a scalar -/

section Fields
variable {φ : FTy} {x y : Ideal φ}

theorem IsReal.addf (hx : IsReal x) (hy : IsReal y) : IsReal (FloatOps.addf x y) := hx.add hy
theorem IsReal.subf (hx : IsReal x) (hy : IsReal y) : IsReal (FloatOps.subf x y) := hx.sub hy
theorem IsReal.mulf (hx : IsReal x) (hy : IsReal y) : IsReal (FloatOps.mulf x y) := hx.mul hy
theorem IsReal.maximumf (hx : IsReal x) (hy : IsReal y) : IsReal (FloatOps.maximumf x y) := hx.max hy
theorem IsReal.minimumf (hx : IsReal x) (hy : IsReal y) : IsReal (FloatOps.minimumf x y) := hx.min hy
theorem IsReal.negf (hx : IsReal x) : IsReal (FloatOps.negf x) := hx.neg
theorem IsReal.extf (ψ : FTy) (h : φ.bits < ψ.bits) (hx : IsReal x) :
    IsReal (FloatOps.extf (F := Ideal) ψ h x) := hx
theorem IsReal.truncf (ψ : FTy) (h : ψ.bits < φ.bits) (hx : IsReal x) :
    IsReal (FloatOps.truncf (F := Ideal) ψ h x) := hx

end Fields

/-! ## Division by a real that is not zero -/

/-- The quotient of two reals, the divisor not zero, is the real quotient. -/
theorem div_coe_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem IsReal.div_of_ne_zero {x y : EReal} (hx : IsReal x) (hy : ∃ r : ℝ, r ≠ 0 ∧ y = r) :
    IsReal (Ideal.div x y) := by
  obtain ⟨a, rfl⟩ := hx
  obtain ⟨b, hb, rfl⟩ := hy
  exact ⟨a / b, div_coe_coe a hb⟩

theorem IsReal.div_of_pos {x y : EReal} (hx : IsReal x) (hy : ∃ r : ℝ, 0 < r ∧ y = r) :
    IsReal (Ideal.div x y) := by
  obtain ⟨b, hb, rfl⟩ := hy
  exact hx.div_of_ne_zero ⟨b, hb.ne', rfl⟩

theorem IsReal.hostDivf {φ : FTy} {x y : Ideal φ} (hx : IsReal x) (hy : ∃ r : ℝ, 0 < r ∧ y = r) :
    IsReal (FloatOps.hostDivf x y) := hx.div_of_pos hy

theorem IsReal.divf {φ : FTy} {x y : Ideal φ} (hx : IsReal x) (hy : ∃ r : ℝ, 0 < r ∧ y = r) :
    IsReal (FloatOps.divf x y) := hx.div_of_pos hy

/-! ## The reciprocal square root of a positive real -/

/-- At a positive real the reciprocal square root is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- `(√r)⁻¹` is positive for positive `r`. -/
theorem inv_sqrt_pos {r : ℝ} (hr : 0 < r) : 0 < (Real.sqrt r)⁻¹ := by
  exact inv_pos.mpr (Real.sqrt_pos.mpr hr)

theorem isReal_rsqrt_of_pos {x : EReal} (hx : ∃ r : ℝ, 0 < r ∧ x = r) : IsReal (Ideal.rsqrt x) := by
  obtain ⟨r, hr, rfl⟩ := hx
  exact ⟨_, rsqrt_coe_of_pos hr⟩

/-- The reciprocal square root of a real at least one is a positive real. -/
theorem rsqrt_pos_real_of_one_le {x : EReal} (hx : ∃ r : ℝ, 1 ≤ r ∧ x = r) :
    ∃ q : ℝ, 0 < q ∧ Ideal.rsqrt x = q := by
  obtain ⟨r, hr, rfl⟩ := hx
  have h0 : 0 < r := lt_of_lt_of_le one_pos hr
  exact ⟨_, inv_sqrt_pos h0, rsqrt_coe_of_pos h0⟩

theorem isReal_hostRsqrt_of_pos {φ : FTy} {x : Ideal φ} (hx : ∃ r : ℝ, 0 < r ∧ x = r) :
    IsReal (FloatOps.hostUnary .rsqrt x) := isReal_rsqrt_of_pos hx

theorem isReal_rsqrtf_of_pos {φ : FTy} {x : Ideal φ} (hx : ∃ r : ℝ, 0 < r ∧ x = r) :
    IsReal (FloatOps.rsqrt x) := isReal_rsqrt_of_pos hx

/-! ## The exponential and `exp - 1` -/

theorem IsReal.exp {x : EReal} (hx : IsReal x) : IsReal (Ideal.exp x) := by
  obtain ⟨r, rfl⟩ := hx
  exact ⟨Real.exp r, rfl⟩

/-- The exponential of a real is a positive real. -/
theorem exp_pos_real {x : EReal} (hx : IsReal x) : ∃ q : ℝ, 0 < q ∧ Ideal.exp x = q := by
  obtain ⟨r, rfl⟩ := hx
  exact ⟨Real.exp r, Real.exp_pos r, rfl⟩

theorem IsReal.expm1 {x : EReal} (hx : IsReal x) : IsReal (Ideal.expm1 x) := by
  exact hx.exp.sub isReal_one

theorem IsReal.hostExp {φ : FTy} {x : Ideal φ} (hx : IsReal x) : IsReal (FloatOps.hostUnary .exp x) := hx.exp
theorem IsReal.expf {φ : FTy} {x : Ideal φ} (hx : IsReal x) : IsReal (FloatOps.exp x) := hx.exp
theorem IsReal.hostExpm1 {φ : FTy} {x : Ideal φ} (hx : IsReal x) : IsReal (FloatOps.hostUnary .expm1 x) := hx.expm1

/-! ## Selection -/

theorem IsReal.select {x y : EReal} (c : BitVec 1) (hx : IsReal x) (hy : IsReal y) :
    IsReal (Scalar.select c x y) := by
  unfold Scalar.select
  split_ifs <;> assumption

/-- A selection on a comparison of floats. -/
theorem IsReal.select_cmpf {φ : FTy} (p : CmpFPredicate) (a b : Ideal φ) {x y : EReal} (hx : IsReal x) (hy : IsReal y) :
    IsReal (Scalar.select (FloatOps.cmpf p a b) x y) := hx.select _ hy

/-! ## Literals -/

theorem ofBits_f32_zero : Ideal.ofBits .f32 0x00000000#32 = 0 := Ideal.ofBits_zero_f32

theorem ofBits_f32_one : Ideal.ofBits .f32 0x3F800000#32 = 1 := by
  simp [Ideal.ofBits, Ideal.ieee]
  rw [← EReal.coe_mul]
  norm_num

theorem ofBits_bf16_zero : Ideal.ofBits .bf16 0x0000#16 = 0 := by
  simp [Ideal.ofBits, Ideal.ieee]

theorem isReal_ofBits_f32_zero : IsReal (Ideal.ofBits .f32 0x00000000#32) := ofBits_f32_zero ▸ isReal_zero
theorem isReal_ofBits_f32_one : IsReal (Ideal.ofBits .f32 0x3F800000#32) := ofBits_f32_one ▸ isReal_one
theorem isReal_ofBits_bf16_zero : IsReal (Ideal.ofBits .bf16 0x0000#16) := ofBits_bf16_zero ▸ isReal_zero

end IdealReal
-- ==== Proof.LibIdealPos.lean ====
/-
  Positive reals among the extended reals.

  `IsPos x` says the extended real `x` is a positive real number.  Sums, products and
  quotients of positive reals are positive reals; the exponential of a real is one; so is the
  reciprocal square root of a real at least one; and the maximum of a real with one is a real
  at least one.  These carry a degree count through `max · 1` and the reciprocal square root
  to a positive edge weight, and a softmax's denominator to a positive real.
-/
import proofs.«418355_j68856915689812_3_alg».proof.Proof.LibIdealReal

namespace IdealReal

open Idealize.ShloMosaic
open scoped BigOperators

/-- An extended real that is a positive real number. -/
def IsPos (x : EReal) : Prop := ∃ q : ℝ, 0 < q ∧ x = q

theorem IsPos.isReal {x : EReal} (h : IsPos x) : IsReal x := by
  obtain ⟨q, _, rfl⟩ := h
  exact ⟨q, rfl⟩

theorem isPos_coe {q : ℝ} (hq : 0 < q) : IsPos (q : EReal) := ⟨q, hq, rfl⟩

theorem isPos_one : IsPos 1 := ⟨1, one_pos, rfl⟩

theorem IsPos.pos {x : EReal} (h : IsPos x) : 0 < x := by
  obtain ⟨q, hq, rfl⟩ := h
  exact EReal.coe_pos.mpr hq

theorem IsPos.ne_zero {x : EReal} (h : IsPos x) : x ≠ 0 := h.pos.ne'

theorem IsPos.add {x y : EReal} (hx : IsPos x) (hy : IsPos y) : IsPos (x + y) := by
  obtain ⟨a, ha, rfl⟩ := hx
  obtain ⟨b, hb, rfl⟩ := hy
  exact ⟨a + b, add_pos ha hb, (EReal.coe_add a b).symm⟩

theorem IsPos.mul {x y : EReal} (hx : IsPos x) (hy : IsPos y) : IsPos (x * y) := by
  obtain ⟨a, ha, rfl⟩ := hx
  obtain ⟨b, hb, rfl⟩ := hy
  exact ⟨a * b, mul_pos ha hb, (EReal.coe_mul a b).symm⟩

/-- Zero plus a positive real, the shape of a sum started from a zero accumulator. -/
theorem IsPos.zero_add {x : EReal} (hx : IsPos x) : IsPos (0 + x) := by
  rw [_root_.zero_add]; exact hx

/-- A sum of positive reals over a set that is not empty is a positive real. -/
theorem IsPos.sum {ι : Type*} (s : Finset ι) (hs : s.Nonempty) (f : ι → EReal)
    (hf : ∀ i ∈ s, IsPos (f i)) : IsPos (∑ i ∈ s, f i) := by
  refine ⟨∑ i ∈ s, (f i).toReal, ?_, ?_⟩
  · refine Finset.sum_pos (fun i hi => ?_) hs
    obtain ⟨q, hq, hqe⟩ := hf i hi
    rw [hqe, EReal.toReal_coe]; exact hq
  · rw [coe_finset_sum]
    exact Finset.sum_congr rfl fun i hi => ((hf i hi).isReal.coe_toReal).symm

/-- The quotient of two positive reals is a positive real. -/
theorem IsPos.div {x y : EReal} (hx : IsPos x) (hy : IsPos y) : IsPos (Ideal.div x y) := by
  obtain ⟨a, ha, rfl⟩ := hx
  obtain ⟨b, hb, rfl⟩ := hy
  exact ⟨a / b, div_pos ha hb, div_coe_coe a hb.ne'⟩

/-- The quotient of a real by a positive real is a real. -/
theorem IsReal.div_isPos {x y : EReal} (hx : IsReal x) (hy : IsPos y) : IsReal (Ideal.div x y) :=
  hx.div_of_pos hy

/-- The exponential of a real is a positive real. -/
theorem IsReal.isPos_exp {x : EReal} (hx : IsReal x) : IsPos (Ideal.exp x) := exp_pos_real hx

/-- The maximum of a real with one is a real at least one. -/
theorem one_le_max_one_of_isReal {x : EReal} (hx : IsReal x) : ∃ r : ℝ, 1 ≤ r ∧ max x 1 = r := by
  obtain ⟨a, rfl⟩ := hx
  refine ⟨max a 1, le_max_right a 1, ?_⟩
  rcases le_total a 1 with h | h
  · rw [max_eq_right h, max_eq_right (by exact_mod_cast h)]; rfl
  · rw [max_eq_left h, max_eq_left (by exact_mod_cast h)]

/-- The same with the one on the left. -/
theorem one_le_one_max_of_isReal {x : EReal} (hx : IsReal x) : ∃ r : ℝ, 1 ≤ r ∧ max 1 x = r := by
  rw [max_comm]; exact one_le_max_one_of_isReal hx

/-- The reciprocal square root of a real at least one is a positive real. -/
theorem isPos_rsqrt_of_one_le {x : EReal} (hx : ∃ r : ℝ, 1 ≤ r ∧ x = r) : IsPos (Ideal.rsqrt x) :=
  rsqrt_pos_real_of_one_le hx

/-- The reciprocal square root of the maximum of a real with one is a positive real: a degree
    count clamped below by one, then inverted. -/
theorem isPos_rsqrt_max_one {x : EReal} (hx : IsReal x) : IsPos (Ideal.rsqrt (max x 1)) :=
  isPos_rsqrt_of_one_le (one_le_max_one_of_isReal hx)

/-- The maximum against the bottom element is the other operand: a maximum folded from `-∞`. -/
theorem isReal_max_bot_left {x : EReal} (hx : IsReal x) : IsReal (max ⊥ x) := by
  rw [max_eq_right bot_le]; exact hx

end IdealReal
-- ==== Proof.Bridge.lean ====
/-
  The two per-row values agree on rows of real numbers.

  A cyclic rotation permutes the 2048 column positions, so a rotated row has the same sum, hence
  the same mean; centring a rotated row is rotating the centred row; the rotated row has the same
  sum of squares, hence the same norm; and its inner product with the centred target is the
  rotated inner product.  None of that needs finiteness.

  On rows of reals the mean and the centred row are real, the sum of squares is a nonnegative
  real, and the norm, the square root of that plus a positive literal, is a positive real.  The
  product of the two norms is then a positive real `d`; dividing any extended real by `d` is
  multiplying it by the positive real `1/d`, and that multiplication is monotone and fixes `-∞`,
  so it commutes with the maximum folded from `-∞`.  Hence the largest quotient is the largest
  inner product times `1/d`.
-/
import proofs.«418355_j68856915689812_3_alg».proof.Proof.Spec
import proofs.«418355_j68856915689812_3_alg».proof.Proof.LibIdealReal
import proofs.«418355_j68856915689812_3_alg».proof.Proof.LibIdealPos
import Mathlib.Data.Finset.Fold
import Mathlib.Order.MinMax
import Mathlib.Algebra.BigOperators.Group.Finset.Defs
import Mathlib.Algebra.BigOperators.Group.Finset.Basic
import Mathlib.Algebra.Order.BigOperators.Group.Finset
import Mathlib.Data.EReal.Operations
import Mathlib.Data.EReal.Inv
import Mathlib.Analysis.Real.Sqrt
import Mathlib.Tactic.NormNum
import Mathlib.Tactic.Positivity

noncomputable section

open scoped BigOperators

namespace Pearson

open IdealReal
open Idealize.ShloMosaic

/-! ## A rotation permutes the column positions -/

/-- The rotation the other way: position `j` reads position `j + n` (cyclically). -/
def rotInv (n : ℕ) (j : Fin 2048) : Fin 2048 := ⟨(j.val + n % 2048) % 2048, Nat.mod_lt _ (by decide)⟩

/-- A rotation is a bijection of the 2048 positions. -/
def rotEquiv (n : ℕ) : Fin 2048 ≃ Fin 2048 where
  toFun := rot n
  invFun := rotInv n
  left_inv := by
    intro j
    apply Fin.ext
    have hj := j.isLt
    have hn := Nat.mod_lt n (show 0 < 2048 by decide)
    simp only [rot, rotInv]
    omega
  right_inv := by
    intro j
    apply Fin.ext
    have hj := j.isLt
    have hn := Nat.mod_lt n (show 0 < 2048 by decide)
    simp only [rot, rotInv]
    omega

/-- Summing a function over the rotated positions is summing it over the positions. -/
theorem sum_rot (n : ℕ) (f : Fin 2048 → EReal) : ∑ j, f (rot n j) = ∑ j, f j :=
  Equiv.sum_comp (rotEquiv n) f

/-- A rotated row has the same mean. -/
theorem mean_rolled (p : Row) (i : Fin 31) : mean (rolled p i) = mean p := by
  unfold mean rolled
  rw [sum_rot (amt i) p]

/-- Centring a rotated row is rotating the centred row. -/
theorem ctr_rolled (p : Row) (i : Fin 31) (j : Fin 2048) : ctr (rolled p i) j = ctr p (rot (amt i) j) := by
  unfold ctr
  rw [mean_rolled]
  rfl

/-- A rotated row has the same norm. -/
theorem nrm_rolled (p : Row) (i : Fin 31) : nrm (rolled p i) = nrm p := by
  unfold nrm
  simp only [ctr_rolled]
  rw [sum_rot (amt i) (fun j => ctr p j * ctr p j)]

/-- The inner product of the centred rotated row with the centred target is the `i`-th product. -/
theorem num_rolled (p t : Row) (i : Fin 31) : ∑ j, ctr (rolled p i) j * ctr t j = cov p t i := by
  unfold cov
  simp only [ctr_rolled]

/-! ## The literals -/

/-- The literal 2048.0 is the real 2048. -/
theorem cN_eq : cN = ((2048 : ℝ) : EReal) := by
  simp [Ideal.ofBits, Ideal.ieee]
  rw [← EReal.coe_mul]
  norm_num

/-- The literal 1.0 is one. -/
theorem cOne_eq : cOne = 1 := ofBits_f32_one

/-- The literal -∞ is the bottom element. -/
theorem cNegInf_eq : cNegInf = ⊥ := by
  simp [Ideal.ofBits, Ideal.ieee]

/-- The small literal is a positive real: a positive significand times a power of two. -/
theorem isPos_cEps : IsPos cEps := by
  unfold IsPos
  simp [Ideal.ofBits, Ideal.ieee]
  exact ⟨_, by positivity, (EReal.coe_mul _ _).symm⟩

theorem isPos_cN : IsPos cN := ⟨2048, by norm_num, cN_eq⟩

/-! ## Finiteness: on rows of reals every intermediate value is a real -/

/-- The mean of a row of reals is a real. -/
theorem isReal_mean {x : Row} (hx : ∀ j, IsReal (x j)) : IsReal (mean x) :=
  (IsReal.sum _ _ fun j _ => hx j).div_of_pos isPos_cN

/-- The centred row of a row of reals is a row of reals. -/
theorem isReal_ctr {x : Row} (hx : ∀ j, IsReal (x j)) (j : Fin 2048) : IsReal (ctr x j) :=
  (hx j).sub (isReal_mean hx)

/-- A finite sum of squares of reals is a nonnegative real. -/
theorem sum_sq_nonneg_real {ι : Type*} (s : Finset ι) (f : ι → EReal) (hf : ∀ i ∈ s, IsReal (f i)) :
    ∃ r : ℝ, 0 ≤ r ∧ ∑ i ∈ s, f i * f i = r := by
  refine ⟨∑ i ∈ s, (f i).toReal * (f i).toReal, Finset.sum_nonneg fun i _ => mul_self_nonneg _, ?_⟩
  rw [coe_finset_sum]
  refine Finset.sum_congr rfl fun i hi => ?_
  rw [EReal.coe_mul, (hf i hi).coe_toReal]

/-- The norm of a row of reals is a positive real: the square root of a nonnegative real plus a
    positive one. -/
theorem isPos_nrm {x : Row} (hx : ∀ j, IsReal (x j)) : IsPos (nrm x) := by
  obtain ⟨s, hs, hse⟩ := sum_sq_nonneg_real Finset.univ (ctr x) fun j _ => isReal_ctr hx j
  obtain ⟨e, he, hee⟩ := isPos_cEps
  have hpos : 0 < s + e := add_pos_of_nonneg_of_pos hs he
  unfold nrm
  rw [hse, hee, ← EReal.coe_add, Ideal.sqrt_coe, if_neg (not_lt.mpr hpos.le)]
  exact ⟨Real.sqrt (s + e), Real.sqrt_pos.mpr hpos, rfl⟩

/-! ## Scaling by a positive real commutes with the folded maximum -/

/-- Multiplying on the right by a positive real commutes with a maximum folded from -∞: the
    multiplication is monotone and fixes -∞. -/
theorem fold_max_mul_pos {ι : Type*} (s : Finset ι) (f : ι → EReal) {c : ℝ} (hc : 0 < c) :
    s.fold max ⊥ (fun i => f i * (c : EReal)) = s.fold max ⊥ f * (c : EReal) := by
  have hmono : Monotone (fun x : EReal => x * (c : EReal)) := fun x y hxy =>
    mul_le_mul_of_nonneg_right hxy (EReal.coe_nonneg.mpr hc.le)
  have h := Finset.fold_hom (op := max) (op' := max) (s := s) (f := f) (b := (⊥ : EReal))
    (m := fun x : EReal => x * (c : EReal)) (fun x y => hmono.map_max)
  simp only [EReal.bot_mul_coe_of_pos hc] at h
  exact h

/-! ## The two per-row values agree -/

/-- For rows of real numbers the two per-row values agree. -/
theorem rRow_eq_kRow (p t : Row) (hp : ∀ j, IsReal (p j)) (ht : ∀ j, IsReal (t j)) : rRow p t = kRow p t := by
  obtain ⟨d, hd, hde⟩ := (isPos_nrm hp).mul (isPos_nrm ht)
  unfold rRow kRow
  simp only [num_rolled, nrm_rolled]
  rw [hde, cNegInf_eq, cOne_eq]
  simp only [Ideal.div_coe hd.ne', one_mul]
  rw [fold_max_mul_pos _ _ (one_div_pos.mpr hd)]

/-- So do the losses, when every row of both arrays is real. -/
theorem loss_rRow_eq_kRow (P T : Fin 2048 → Row) (hP : ∀ r j, IsReal (P r j)) (hT : ∀ r j, IsReal (T r j)) :
    loss rRow P T = loss kRow P T := by
  unfold loss
  rw [Finset.sum_congr rfl fun r _ => rRow_eq_kRow (P r) (T r) (hP r) (hT r)]

end Pearson

end
-- ==== Proof.Finite.lean ====
/-
  Finiteness.  The precondition says of each argument array that the absolute value of every entry
  is below +∞; on the extended reals that excludes exactly the two infinities, so every entry of
  both arrays is a real number.
-/
import proofs.«418355_j68856915689812_3_alg».proof.Pre_finite_inputs
import proofs.«418355_j68856915689812_3_alg».proof.Proof.Gen.Pre_finite_inputs
import proofs.«418355_j68856915689812_3_alg».proof.Proof.LibIdealReal
import Idealize.ShloMosaic.Lib.ReduceAll
import Idealize.ShloMosaic.Lib.ValueIdx

noncomputable section

namespace Cert.Finite

open Idealize.ShloMosaic IdealReal

instance : Subsingleton Cert.Pre_finite_inputs.S_.Idx := ⟨fun a b => funext fun d => d.elim0⟩

/-- The word 0x7F800000 is +∞. -/
theorem ofBits_inf : Ideal.ofBits .f32 0x7F800000#32 = ⊤ := by
  simp [Ideal.ofBits, Ideal.ieee]

/-- An extended real whose absolute value is strictly below +∞ is a real. -/
theorem isReal_of_abs_lt_top (x : EReal) (h : max x (-x) < ⊤) : IsReal x := by
  induction x using EReal.rec with
  | bot => simp at h
  | top => simp at h
  | coe r => exact ⟨r, rfl⟩

/-- One entry: the printed comparison being 1 says the entry is real. -/
theorem isReal_of_cmp (x : Ideal .f32)
    (h : FloatOps.cmpf .olt (FloatOps.hostAbsf x) (Ideal.ofBits .f32 0x7F800000#32 : Ideal .f32) = 1#1) : IsReal x := by
  rw [ofBits_inf] at h
  have h' : Ideal.cmp .olt (max x (-x)) ⊤ = 1#1 := h
  unfold Ideal.cmp at h'
  refine isReal_of_abs_lt_top x ?_
  by_contra hn
  simp [hn] at h'

/-- The precondition gives: every entry of both arrays is real. -/
theorem real_of_pre (a0 a1 : FVec Ideal Cert.Pre_finite_inputs.S2048x2048 .f32)
    (h : Cert.Pre_finite_inputs.fn (F := Ideal) a0 a1 = fun _ => 1#1) :
    (∀ i, IsReal (a0 i)) ∧ (∀ i, IsReal (a1 i)) := by
  have h0 := congrFun h ValueIdx.ix0
  dsimp only [Cert.Pre_finite_inputs.fn] at h0
  obtain ⟨h1, h2⟩ := IntOp.andi_eq_one.1 h0
  exact ⟨fun i => isReal_of_cmp (a0 i) (Host.reduce_andi_all _ _ _ _ _ h1 i),
    fun i => isReal_of_cmp (a1 i) (Host.reduce_andi_all _ _ _ _ _ h2 i)⟩

end Cert.Finite

end
-- ==== Proof.lean ====
/-
  The certificate's five claims.

  Both programs compute a loss from two [2048,2048] arrays of predictions and targets: for every
  row, the largest over 31 cyclic shifts (by -15, …, 15 places) of the correlation between the
  shifted prediction row and the target row, clamped below at -1; then one minus the mean over the
  rows.  The kernel centres a prediction row once and rotates the centred row, keeps the largest
  inner product with the centred target row and scales it once by the reciprocal of the two norms;
  the reference rotates the row first and recomputes mean, norm and quotient for each shift.

  On the extended reals a rotation only reorders a row's sum, so mean, centred row and norm do not
  change under it; that needs no finiteness.  What does need the precondition (every input entry a
  real number) is the last step: the two norms are then positive reals, division by their product is
  multiplication by a positive real, and multiplication by a positive real commutes with the
  maximum over the shifts, from -∞ on.

  The kernel's run is read off its frame: the output block of grid point t, row by row, is the
  per-row value of rows 256·t … 256·t + 255; the eight blocks tile the [2048,1] output; the operations
  after the launch take its mean.  The reference's run is written over its operations in a
  straight line, the rotated copies being a gather from the predictions laid twice side by side at
  start columns computed from an iota.
-/
import proofs.«418355_j68856915689812_3_alg».proof.Defs
import proofs.«418355_j68856915689812_3_alg».proof.Proof.Gen.Kernel
import proofs.«418355_j68856915689812_3_alg».proof.Proof.Gen.Kernel.Frame
import proofs.«418355_j68856915689812_3_alg».proof.Proof.Gen.KernelIdeal
import proofs.«418355_j68856915689812_3_alg».proof.Proof.Gen.KernelIdeal.Frame
import proofs.«418355_j68856915689812_3_alg».proof.Proof.Gen.ReferenceIdeal
import proofs.«418355_j68856915689812_3_alg».proof.Proof.Gen.Pre_finite_inputs
import proofs.«418355_j68856915689812_3_alg».proof.Proof.KernelRow
import proofs.«418355_j68856915689812_3_alg».proof.Proof.KernelRun
import proofs.«418355_j68856915689812_3_alg».proof.Proof.RefRun
import proofs.«418355_j68856915689812_3_alg».proof.Proof.RefRead
import proofs.«418355_j68856915689812_3_alg».proof.Proof.Bridge
import proofs.«418355_j68856915689812_3_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the loss of the per-row value: the kernel by its run, the reference by its
    run read back and, the inputs being real, the per-row identity. -/
theorem algebraic : Cert.algebraic_KernelIdeal_ReferenceIdeal := by
  intro m ρ m' ρ' hpre hagree
  refine ⟨fun c => fun _ => Pearson.loss Pearson.kRow
      (Pearson.rows (m ((c.tc : Thread Cert.KernelIdeal.nD Cert.KernelIdeal.τ).loc Cert.KernelIdeal.main_arg0)))
      (Pearson.rows (m ((c.tc : Thread Cert.KernelIdeal.nD Cert.KernelIdeal.τ).loc Cert.KernelIdeal.main_arg1))),
    Cert.KernelIdeal.KRun.run m ρ Cert.KernelIdeal.KRow.out0_2_apply, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefRead.out_eq]
  obtain ⟨h0, h1⟩ := Cert.Finite.real_of_pre _ _ (hpre c)
  funext _
  exact Pearson.loss_rRow_eq_kRow _ _ (fun r j => h0 _) (fun r j => h1 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
